-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x100000 : Shape := ⟨2, ![8, 100000]⟩
abbrev S1 : Shape := ⟨1, ![1]⟩
abbrev S3200000 : Shape := ⟨1, ![3200000]⟩
abbrev S2x3200000 : Shape := ⟨2, ![2, 3200000]⟩
abbrev S1x3200000 : Shape := ⟨2, ![1, 3200000]⟩
abbrev S_ : Shape := ⟨0, ![]⟩
abbrev S100000 : Shape := ⟨1, ![100000]⟩
abbrev S3200000x1 : Shape := ⟨2, ![3200000, 1]⟩

class Facts : Prop where
  slices_S2x3200000_S1x3200000_0_0 : S2x3200000.Slices ![0, 0] S1x3200000
  shapeCasts_S1x3200000_S3200000 : S1x3200000.ShapeCasts S3200000
  bcast_S_S100000 : S_.BroadcastsInDim S100000 (![] : Fin 0 → Fin S100000.rank)
  bcast_S3200000_S3200000x1_0 : S3200000.BroadcastsInDim S3200000x1 (![0] : Fin 1 → Fin S3200000x1.rank)
  bcast_S_S8x100000 : S_.BroadcastsInDim S8x100000 (![] : Fin 0 → Fin S8x100000.rank)
  reducesTo_S8x100000_S_d0_1 : S8x100000.ReducesTo [0, 1] S_
  h_S_ : 0 < S_.numel
  bcast_S_S1 : S_.BroadcastsInDim S1 (![] : Fin 0 → Fin S1.rank)
  reducesTo_S1_S_d0 : S1.ReducesTo [0] S_
  bcast_S_S3200000 : S_.BroadcastsInDim S3200000 (![] : Fin 0 → Fin S3200000.rank)
  reducesTo_S3200000_S_d0 : S3200000.ReducesTo [0] S_
  bcast_S_S2x3200000 : S_.BroadcastsInDim S2x3200000 (![] : Fin 0 → Fin S2x3200000.rank)
  reducesTo_S2x3200000_S_d0_1 : S2x3200000.ReducesTo [0, 1] S_
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]

variable [Facts]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def fn_part2 {F : FTy → Type} [FloatOps F] (main_v4 : FVec F S100000 .f32) (main_v30 : IVec S_ 1) (main_v32 : IVec S3200000 32) (main_v34 : IVec S3200000 1) : IVec S_ 1 :=
  let main_c_11 : IVec S_ 32 := constantI S_ 32 100000#32
  let main_v35 : IVec S3200000 32 := broadcastInDim S3200000 ![] bcast_S_S3200000 main_c_11
  let main_v36 : IVec S3200000 32 := addi main_v32 main_v35
  let main_v37 : IVec S3200000 32 := select main_v34 main_v36 main_v32
  let main_v38 : IVec S3200000x1 32 := broadcastInDim S3200000x1 ![0] bcast_S3200000_S3200000x1_0 main_v37
  let main_v39 : FVec F S3200000 .f32 := (fun x i => Host.gather gather_S100000_S3200000x1_S3200000_n_0_n_n_0_1_1 x i) main_v4 main_v38
  let main_cst_12 : FVec F S_ .f32 := constant S_ .f32 0x00000000#32
  let main_v40 : FVec F S3200000 .f32 := broadcastInDim S3200000 ![] bcast_S_S3200000 main_cst_12
  let main_v41 : IVec S3200000 1 := cmpf .une main_v39 main_v40
  let main_c_13 : IVec S_ 1 := constantI S_ 1 1#1
  let main_v42 : IVec S_ 1 := (fun x v => Host.reduce IntOp.andi x v reducesTo_S3200000_S_d0 h_S_) main_v41 main_c_13
  let main_v43 : IVec S_ 1 := andi main_v30 main_v42
  main_v43

def fn_part1 {F : FTy → Type} [FloatOps F] (main_arg3 : FVec F S3200000 .f32) (main_arg4 : IVec S2x3200000 32) (main_v4 : FVec F S100000 .f32) (main_v13 : IVec S_ 1) (main_v16 : IVec S3200000 1) (main_c_4 : IVec S_ 1) : IVec S_ 1 :=
  let main_v17 : IVec S_ 1 := (fun x v => Host.reduce IntOp.andi x v reducesTo_S3200000_S_d0 h_S_) main_v16 main_c_4
  let main_v18 : IVec S_ 1 := andi main_v13 main_v17
  let main_v19 : FVec F S3200000 .f32 := Host.absf main_arg3
  let main_cst_5 : FVec F S_ .f32 := constant S_ .f32 0x7F800000#32
  let main_v20 : FVec F S3200000 .f32 := broadcastInDim S3200000 ![] bcast_S_S3200000 main_cst_5
  let main_v21 : IVec S3200000 1 := cmpf .olt main_v19 main_v20
  let main_c_6 : IVec S_ 1 := constantI S_ 1 1#1
  let main_v22 : IVec S_ 1 := (fun x v => Host.reduce IntOp.andi x v reducesTo_S3200000_S_d0 h_S_) main_v21 main_c_6
  let main_v23 : IVec S_ 1 := andi main_v18 main_v22
  let main_c_7 : IVec S_ 32 := constantI S_ 32 0#32
  let main_v24 : IVec S2x3200000 32 := broadcastInDim S2x3200000 ![] bcast_S_S2x3200000 main_c_7
  let main_v25 : IVec S2x3200000 1 := cmpi .sge main_arg4 main_v24
  let main_c_8 : IVec S_ 32 := constantI S_ 32 100000#32
  let main_v26 : IVec S2x3200000 32 := broadcastInDim S2x3200000 ![] bcast_S_S2x3200000 main_c_8
  let main_v27 : IVec S2x3200000 1 := cmpi .slt main_arg4 main_v26
  let main_v28 : IVec S2x3200000 1 := andi main_v25 main_v27
  let main_c_9 : IVec S_ 1 := constantI S_ 1 1#1
  let main_v29 : IVec S_ 1 := (fun x v => Host.reduce IntOp.andi x v reducesTo_S2x3200000_S_d0_1 h_S_) main_v28 main_c_9
  let main_v30 : IVec S_ 1 := andi main_v23 main_v29
  let main_v31 : IVec S1x3200000 32 := (extractStridedSlice S1x3200000 ![0, 0] · slices_S2x3200000_S1x3200000_0_0) main_arg4
  let main_v32 : IVec S3200000 32 := shapeCast S3200000 main_v31 shapeCasts_S1x3200000_S3200000
  let main_c_10 : IVec S_ 32 := constantI S_ 32 0#32
  let main_v33 : IVec S3200000 32 := broadcastInDim S3200000 ![] bcast_S_S3200000 main_c_10
  let main_v34 : IVec S3200000 1 := cmpi .slt main_v32 main_v33
  fn_part2 (F := F) main_v4 main_v30 main_v32 main_v34

def fn {F : FTy → Type} [FloatOps F] (main_arg0 : FVec F S8x100000 .f32) (main_arg1 : FVec F S1 .f32) (main_arg2 : FVec F S3200000 .f32) (main_arg3 : FVec F S3200000 .f32) (main_arg4 : IVec S2x3200000 32) : IVec S_ 1 :=
  let main_v0 : IVec S1x3200000 32 := (extractStridedSlice S1x3200000 ![0, 0] · slices_S2x3200000_S1x3200000_0_0) main_arg4
  let main_v1 : IVec S3200000 32 := shapeCast S3200000 main_v0 shapeCasts_S1x3200000_S3200000
  let main_cst : FVec F S_ .f32 := constant S_ .f32 0x00000000#32
  let main_v2 : FVec F S100000 .f32 := broadcastInDim S100000 ![] bcast_S_S100000 main_cst
  let main_v3 : IVec S3200000x1 32 := broadcastInDim S3200000x1 ![0] bcast_S3200000_S3200000x1_0 main_v1
  let main_v4 : FVec F S100000 .f32 := (fun x i u => Host.scatterAdd scatter_S100000_S3200000x1_S3200000_n_0_0_1 x i u) main_v2 main_v3 main_arg2
  let main_v5 : FVec F S8x100000 .f32 := Host.absf main_arg0
  let main_cst_0 : FVec F S_ .f32 := constant S_ .f32 0x7F800000#32
  let main_v6 : FVec F S8x100000 .f32 := broadcastInDim S8x100000 ![] bcast_S_S8x100000 main_cst_0
  let main_v7 : IVec S8x100000 1 := cmpf .olt main_v5 main_v6
  let main_c : IVec S_ 1 := constantI S_ 1 1#1
  let main_v8 : IVec S_ 1 := (fun x v => Host.reduce IntOp.andi x v reducesTo_S8x100000_S_d0_1 h_S_) main_v7 main_c
  let main_v9 : FVec F S1 .f32 := Host.absf main_arg1
  let main_cst_1 : FVec F S_ .f32 := constant S_ .f32 0x7F800000#32
  let main_v10 : FVec F S1 .f32 := broadcastInDim S1 ![] bcast_S_S1 main_cst_1
  let main_v11 : IVec S1 1 := cmpf .olt main_v9 main_v10
  let main_c_2 : IVec S_ 1 := constantI S_ 1 1#1
  let main_v12 : IVec S_ 1 := (fun x v => Host.reduce IntOp.andi x v reducesTo_S1_S_d0 h_S_) main_v11 main_c_2
  let main_v13 : IVec S_ 1 := andi main_v8 main_v12
  let main_v14 : FVec F S3200000 .f32 := Host.absf main_arg2
  let main_cst_3 : FVec F S_ .f32 := constant S_ .f32 0x7F800000#32
  let main_v15 : FVec F S3200000 .f32 := broadcastInDim S3200000 ![] bcast_S_S3200000 main_cst_3
  let main_v16 : IVec S3200000 1 := cmpf .olt main_v14 main_v15
  let main_c_4 : IVec S_ 1 := constantI S_ 1 1#1
  fn_part1 (F := F) main_arg3 main_arg4 main_v4 main_v13 main_v16 main_c_4
-- ==== Kernel.lean ====
abbrev S8x100000 : Shape := ⟨2, ![8, 100000]⟩
abbrev S1 : Shape := ⟨1, ![1]⟩
abbrev S3200000 : Shape := ⟨1, ![3200000]⟩
abbrev S2x3200000 : Shape := ⟨2, ![2, 3200000]⟩
abbrev S1x3200000 : Shape := ⟨2, ![1, 3200000]⟩
abbrev S_ : Shape := ⟨0, ![]⟩
abbrev S100000 : Shape := ⟨1, ![100000]⟩
abbrev S3200000x1 : Shape := ⟨2, ![3200000, 1]⟩
abbrev S1x1 : Shape := ⟨2, ![1, 1]⟩
abbrev S8x3200000 : Shape := ⟨2, ![8, 3200000]⟩
abbrev S8x128000 : Shape := ⟨2, ![8, 128000]⟩
abbrev S1x128000 : Shape := ⟨2, ![1, 128000]⟩

abbrev nBuf : Space → Nat
  | .hbm => 94
  | .vmem => 6
  | .smem => 0
  | _ => 0

abbrev bufTy : (tb : Table) → Fin (tcTables nBuf tb) → BufTy
  | .hbm, ⟨0, _⟩ => ⟨S8x100000, .f32⟩
  | .hbm, ⟨1, _⟩ => ⟨S1, .f32⟩
  | .hbm, ⟨2, _⟩ => ⟨S3200000, .f32⟩
  | .hbm, ⟨3, _⟩ => ⟨S3200000, .f32⟩
  | .hbm, ⟨4, _⟩ => ⟨S2x3200000, .i32⟩
  | .hbm, ⟨5, _⟩ => ⟨S1x3200000, .i32⟩
  | .hbm, ⟨6, _⟩ => ⟨S3200000, .i32⟩
  | .hbm, ⟨7, _⟩ => ⟨S1x3200000, .i32⟩
  | .hbm, ⟨8, _⟩ => ⟨S3200000, .i32⟩
  | .hbm, ⟨9, _⟩ => ⟨S_, .f32⟩
  | .hbm, ⟨10, _⟩ => ⟨S100000, .f32⟩
  | .hbm, ⟨11, _⟩ => ⟨S3200000x1, .i32⟩
  | .hbm, ⟨12, _⟩ => ⟨S100000, .f32⟩
  | .hbm, ⟨13, _⟩ => ⟨S100000, .f32⟩
  | .hbm, ⟨14, _⟩ => ⟨S_, .f32⟩
  | .hbm, ⟨15, _⟩ => ⟨S100000, .f32⟩
  | .hbm, ⟨16, _⟩ => ⟨S100000, .f32⟩
  | .hbm, ⟨17, _⟩ => ⟨S_, .i32⟩
  | .hbm, ⟨18, _⟩ => ⟨S3200000, .i32⟩
  | .hbm, ⟨19, _⟩ => ⟨S3200000, .i1⟩
  | .hbm, ⟨20, _⟩ => ⟨S_, .i32⟩
  | .hbm, ⟨21, _⟩ => ⟨S3200000, .i32⟩
  | .hbm, ⟨22, _⟩ => ⟨S3200000, .i32⟩
  | .hbm, ⟨23, _⟩ => ⟨S3200000, .i32⟩
  | .hbm, ⟨24, _⟩ => ⟨S3200000x1, .i32⟩
  | .hbm, ⟨25, _⟩ => ⟨S3200000, .f32⟩
  | .hbm, ⟨26, _⟩ => ⟨S_, .i32⟩
  | .hbm, ⟨27, _⟩ => ⟨S3200000, .i32⟩
  | .hbm, ⟨28, _⟩ => ⟨S3200000, .i1⟩
  | .hbm, ⟨29, _⟩ => ⟨S_, .i32⟩
  | .hbm, ⟨30, _⟩ => ⟨S3200000, .i32⟩
  | .hbm, ⟨31, _⟩ => ⟨S3200000, .i32⟩
  | .hbm, ⟨32, _⟩ => ⟨S3200000, .i32⟩
  | .hbm, ⟨33, _⟩ => ⟨S3200000x1, .i32⟩
  | .hbm, ⟨34, _⟩ => ⟨S1, .i32⟩
  | .hbm, ⟨35, _⟩ => ⟨S_, .i32⟩
  | .hbm, ⟨36, _⟩ => ⟨S3200000x1, .i32⟩
  | .hbm, ⟨37, _⟩ => ⟨S3200000x1, .i1⟩
  | .hbm, ⟨38, _⟩ => ⟨S1x1, .i32⟩
  | .hbm, ⟨39, _⟩ => ⟨S3200000x1, .i32⟩
  | .hbm, ⟨40, _⟩ => ⟨S3200000x1, .i1⟩
  | .hbm, ⟨41, _⟩ => ⟨S3200000x1, .i1⟩
  | .hbm, ⟨42, _⟩ => ⟨S_, .i1⟩
  | .hbm, ⟨43, _⟩ => ⟨S3200000, .i1⟩
  | .hbm, ⟨44, _⟩ => ⟨S8x3200000, .f32⟩
  | .hbm, ⟨45, _⟩ => ⟨S8x3200000, .i1⟩
  | .hbm, ⟨46, _⟩ => ⟨S_, .f32⟩
  | .hbm, ⟨47, _⟩ => ⟨S8x3200000, .f32⟩
  | .hbm, ⟨48, _⟩ => ⟨S8x3200000, .f32⟩
  | .hbm, ⟨49, _⟩ => ⟨S_, .i32⟩
  | .hbm, ⟨50, _⟩ => ⟨S3200000, .i32⟩
  | .hbm, ⟨51, _⟩ => ⟨S3200000, .i1⟩
  | .hbm, ⟨52, _⟩ => ⟨S_, .i32⟩
  | .hbm, ⟨53, _⟩ => ⟨S3200000, .i32⟩
  | .hbm, ⟨54, _⟩ => ⟨S3200000, .i32⟩
  | .hbm, ⟨55, _⟩ => ⟨S3200000, .i32⟩
  | .hbm, ⟨56, _⟩ => ⟨S3200000x1, .i32⟩
  | .hbm, ⟨57, _⟩ => ⟨S1, .i32⟩
  | .hbm, ⟨58, _⟩ => ⟨S_, .i32⟩
  | .hbm, ⟨59, _⟩ => ⟨S3200000x1, .i32⟩
  | .hbm, ⟨60, _⟩ => ⟨S3200000x1, .i1⟩
  | .hbm, ⟨61, _⟩ => ⟨S1x1, .i32⟩
  | .hbm, ⟨62, _⟩ => ⟨S3200000x1, .i32⟩
  | .hbm, ⟨63, _⟩ => ⟨S3200000x1, .i1⟩
  | .hbm, ⟨64, _⟩ => ⟨S3200000x1, .i1⟩
  | .hbm, ⟨65, _⟩ => ⟨S_, .i1⟩
  | .hbm, ⟨66, _⟩ => ⟨S3200000, .i1⟩
  | .hbm, ⟨67, _⟩ => ⟨S8x3200000, .f32⟩
  | .hbm, ⟨68, _⟩ => ⟨S8x3200000, .i1⟩
  | .hbm, ⟨69, _⟩ => ⟨S_, .f32⟩
  | .hbm, ⟨70, _⟩ => ⟨S8x3200000, .f32⟩
  | .hbm, ⟨71, _⟩ => ⟨S8x3200000, .f32⟩
  | .hbm, ⟨72, _⟩ => ⟨S1x3200000, .f32⟩
  | .hbm, ⟨73, _⟩ => ⟨S8x3200000, .f32⟩
  | .hbm, ⟨74, _⟩ => ⟨S8x3200000, .f32⟩
  | .hbm, ⟨75, _⟩ => ⟨S8x3200000, .f32⟩
  | .hbm, ⟨76, _⟩ => ⟨S8x3200000, .f32⟩
  | .hbm, ⟨77, _⟩ => ⟨S8x3200000, .f32⟩
  | .hbm, ⟨78, _⟩ => ⟨S1x3200000, .f32⟩
  | .hbm, ⟨79, _⟩ => ⟨S8x3200000, .f32⟩
  | .hbm, ⟨80, _⟩ => ⟨S_, .f32⟩
  | .hbm, ⟨81, _⟩ => ⟨S8x100000, .f32⟩
  | .hbm, ⟨82, _⟩ => ⟨S_, .i32⟩
  | .hbm, ⟨83, _⟩ => ⟨S3200000, .i32⟩
  | .hbm, ⟨84, _⟩ => ⟨S3200000, .i1⟩
  | .hbm, ⟨85, _⟩ => ⟨S_, .i32⟩
  | .hbm, ⟨86, _⟩ => ⟨S3200000, .i32⟩
  | .hbm, ⟨87, _⟩ => ⟨S3200000, .i32⟩
  | .hbm, ⟨88, _⟩ => ⟨S3200000, .i32⟩
  | .hbm, ⟨89, _⟩ => ⟨S3200000x1, .i32⟩
  | .hbm, ⟨90, _⟩ => ⟨S8x100000, .f32⟩
  | .hbm, ⟨91, _⟩ => ⟨S_, .f32⟩
  | .hbm, ⟨92, _⟩ => ⟨S8x100000, .f32⟩
  | .hbm, ⟨93, _⟩ => ⟨S8x100000, .f32⟩
  | .local _ .vmem, ⟨0, _⟩ => ⟨S8x128000, .f32⟩
  | .local _ .vmem, ⟨1, _⟩ => ⟨S8x128000, .f32⟩
  | .local _ .vmem, ⟨2, _⟩ => ⟨S1x128000, .f32⟩
  | .local _ .vmem, ⟨3, _⟩ => ⟨S1x128000, .f32⟩
  | .local _ .vmem, ⟨4, _⟩ => ⟨S8x128000, .f32⟩
  | .local _ .vmem, ⟨5, _⟩ => ⟨S8x128000, .f32⟩
  | _, _ => ⟨S8x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_c : Ref sig .tc := ⟨.hbm, 17, rfl⟩
abbrev main_v10 : Ref sig .tc := ⟨.hbm, 18, rfl⟩
abbrev main_v11 : Ref sig .tc := ⟨.hbm, 19, rfl⟩
abbrev main_c_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_call0_c : Ref sig .tc := ⟨.hbm, 26, rfl⟩
abbrev main_call0_v0 : Ref sig .tc := ⟨.hbm, 27, rfl⟩
abbrev main_call0_v1 : Ref sig .tc := ⟨.hbm, 28, rfl⟩
abbrev main_call0_c_0 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_v5 : Ref sig .tc := ⟨.hbm, 33, rfl⟩
abbrev main_call0_c_1 : Ref sig .tc := ⟨.hbm, 34, rfl⟩
abbrev main_call0_c_2 : Ref sig .tc := ⟨.hbm, 35, rfl⟩
abbrev main_call0_v6 : Ref sig .tc := ⟨.hbm, 36, rfl⟩
abbrev main_call0_v7 : Ref sig .tc := ⟨.hbm, 37, rfl⟩
abbrev main_call0_v8 : Ref sig .tc := ⟨.hbm, 38, rfl⟩
abbrev main_call0_v9 : Ref sig .tc := ⟨.hbm, 39, rfl⟩
abbrev main_call0_v10 : Ref sig .tc := ⟨.hbm, 40, rfl⟩
abbrev main_call0_v11 : Ref sig .tc := ⟨.hbm, 41, rfl⟩
abbrev main_call0_c_3 : Ref sig .tc := ⟨.hbm, 42, rfl⟩
abbrev main_call0_v12 : Ref sig .tc := ⟨.hbm, 43, rfl⟩
abbrev main_call0_v13 : Ref sig .tc := ⟨.hbm, 44, rfl⟩
abbrev main_call0_v14 : Ref sig .tc := ⟨.hbm, 45, rfl⟩
abbrev main_call0_cst : Ref sig .tc := ⟨.hbm, 46, rfl⟩
abbrev main_call0_v15 : Ref sig .tc := ⟨.hbm, 47, rfl⟩
abbrev main_v17 : Ref sig .tc := ⟨.hbm, 48, rfl⟩
abbrev main_call1_c : Ref sig .tc := ⟨.hbm, 49, rfl⟩
abbrev main_call1_v0 : Ref sig .tc := ⟨.hbm, 50, rfl⟩
abbrev main_call1_v1 : Ref sig .tc := ⟨.hbm, 51, rfl⟩
abbrev main_call1_c_0 : Ref sig .tc := ⟨.hbm, 52, rfl⟩
abbrev main_call1_v2 : Ref sig .tc := ⟨.hbm, 53, rfl⟩
abbrev main_call1_v3 : Ref sig .tc := ⟨.hbm, 54, rfl⟩
abbrev main_call1_v4 : Ref sig .tc := ⟨.hbm, 55, rfl⟩
abbrev main_call1_v5 : Ref sig .tc := ⟨.hbm, 56, rfl⟩
abbrev main_call1_c_1 : Ref sig .tc := ⟨.hbm, 57, rfl⟩
abbrev main_call1_c_2 : Ref sig .tc := ⟨.hbm, 58, rfl⟩
abbrev main_call1_v6 : Ref sig .tc := ⟨.hbm, 59, rfl⟩
abbrev main_call1_v7 : Ref sig .tc := ⟨.hbm, 60, rfl⟩
abbrev main_call1_v8 : Ref sig .tc := ⟨.hbm, 61, rfl⟩
abbrev main_call1_v9 : Ref sig .tc := ⟨.hbm, 62, rfl⟩
abbrev main_call1_v10 : Ref sig .tc := ⟨.hbm, 63, rfl⟩
abbrev main_call1_v11 : Ref sig .tc := ⟨.hbm, 64, rfl⟩
abbrev main_call1_c_3 : Ref sig .tc := ⟨.hbm, 65, rfl⟩
abbrev main_call1_v12 : Ref sig .tc := ⟨.hbm, 66, rfl⟩
abbrev main_call1_v13 : Ref sig .tc := ⟨.hbm, 67, rfl⟩
abbrev main_call1_v14 : Ref sig .tc := ⟨.hbm, 68, rfl⟩
abbrev main_call1_cst : Ref sig .tc := ⟨.hbm, 69, rfl⟩
abbrev main_call1_v15 : Ref sig .tc := ⟨.hbm, 70, rfl⟩
abbrev main_v18 : Ref sig .tc := ⟨.hbm, 71, rfl⟩
abbrev main_v19 : Ref sig .tc := ⟨.hbm, 72, rfl⟩
abbrev main_v20 : Ref sig .tc := ⟨.hbm, 73, rfl⟩
abbrev main_v21 : Ref sig .tc := ⟨.hbm, 74, rfl⟩
abbrev main_v22 : Ref sig .tc := ⟨.hbm, 75, rfl⟩
abbrev main_v23 : Ref sig .tc := ⟨.hbm, 76, rfl⟩
abbrev main_v24 : Ref sig .tc := ⟨.hbm, 77, rfl⟩
abbrev main_v25 : Ref sig .tc := ⟨.hbm, 78, rfl⟩
abbrev main_v26 : Ref sig .tc := ⟨.hbm, 79, rfl⟩
abbrev main_cst_2 : Ref sig .tc := ⟨.hbm, 80, rfl⟩
abbrev main_v27 : Ref sig .tc := ⟨.hbm, 81, rfl⟩
abbrev main_c_3 : Ref sig .tc := ⟨.hbm, 82, rfl⟩
abbrev main_v28 : Ref sig .tc := ⟨.hbm, 83, rfl⟩
abbrev main_v29 : Ref sig .tc := ⟨.hbm, 84, rfl⟩
abbrev main_c_4 : Ref sig .tc := ⟨.hbm, 85, rfl⟩
abbrev main_v30 : Ref sig .tc := ⟨.hbm, 86, rfl⟩
abbrev main_v31 : Ref sig .tc := ⟨.hbm, 87, rfl⟩
abbrev main_v32 : Ref sig .tc := ⟨.hbm, 88, rfl⟩
abbrev main_v33 : Ref sig .tc := ⟨.hbm, 89, rfl⟩
abbrev main_v34 : Ref sig .tc := ⟨.hbm, 90, rfl⟩
abbrev main_cst_5 : Ref sig .tc := ⟨.hbm, 91, rfl⟩
abbrev main_v35 : Ref sig .tc := ⟨.hbm, 92, rfl⟩
abbrev main_v36 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8x128000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x128000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S100000 : S_.BroadcastsInDim S100000 (![] : Fin 0 → Fin S100000.rank)
  bcast_S3200000_S3200000x1_0 : S3200000.BroadcastsInDim S3200000x1 (![0] : Fin 1 → Fin S3200000x1.rank)
  bcast_S_S3200000 : S_.BroadcastsInDim S3200000 (![] : Fin 0 → Fin S3200000.rank)
  bcast_S_S3200000x1 : S_.BroadcastsInDim S3200000x1 (![] : Fin 0 → Fin S3200000x1.rank)
  bcast_S1_S1x1_1 : S1.BroadcastsInDim S1x1 (![1] : Fin 1 → Fin S1x1.rank)
  bcast_S1x1_S3200000x1_0_1 : S1x1.BroadcastsInDim S3200000x1 (![0, 1] : Fin 2 → Fin S3200000x1.rank)
  reducesTo_S3200000x1_S3200000_d1 : S3200000x1.ReducesTo [1] S3200000
  h_S_ : 0 < S_.numel
  bcast_S3200000_S8x3200000_1 : S3200000.BroadcastsInDim S8x3200000 (![1] : Fin 1 → Fin S8x3200000.rank)
  bcast_S_S8x3200000 : S_.BroadcastsInDim S8x3200000 (![] : Fin 0 → Fin S8x3200000.rank)
  bcast_S3200000_S1x3200000_1 : S3200000.BroadcastsInDim S1x3200000 (![1] : Fin 1 → Fin S1x3200000.rank)
  bcast_S1x3200000_S8x3200000_0_1 : S1x3200000.BroadcastsInDim S8x3200000 (![0, 1] : Fin 2 → Fin S8x3200000.rank)
  shapeCasts_S3200000_S1x3200000 : S3200000.ShapeCasts S1x3200000
  inb_S8x128000_S8x128000_0_0 : ∀ a, (![0, 0] : Fin 2 → Nat) a + S8x128000.size a ≤ S8x128000.size a
  h_S8x128000 : 0 < S8x128000.numel
  shapeCasts_S8x128000_S8x128000 : S8x128000.ShapeCasts S8x128000
  inb_S1x128000_S1x128000_0_0 : ∀ a, (![0, 0] : Fin 2 → Nat) a + S1x128000.size a ≤ S1x128000.size a
  h_S1x128000 : 0 < S1x128000.numel
  shapeCasts_S1x128000_S1x128000 : S1x128000.ShapeCasts S1x128000
  broadcasts_S1x128000_S8x128000 : S1x128000.Broadcasts S8x128000
  bcast_S_S8x100000 : S_.BroadcastsInDim S8x100000 (![] : Fin 0 → Fin S8x100000.rank)
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  gather_S8x100000_S3200000x1_S8x3200000_0_1_n_n_1_1_81_wf : GatherDims.WF S8x100000 S3200000x1 S8x3200000 [0] [1] [] [1] [] 1 ![8, 1]
  scatter_S8x100000_S3200000x1_S8x3200000_0_1_1_1_wf : ScatterDims.WF S8x100000 S3200000x1 S8x3200000 [0] [1] [1] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x128000.size a ≤ S8x3200000.size a
  hwx0_0 : ∀ i : grid0.Coords, EltTy.bits .f32 = 32 ∨ (Rect.block (s := S8x3200000) S8x128000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128000.size a ≤ S1x3200000.size a
  hwx0_1 : ∀ i : grid0.Coords, EltTy.bits .f32 = 32 ∨ (Rect.block (s := S1x3200000) S1x128000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128000.size a ≤ S8x3200000.size a
  hwx0_2 : ∀ i : grid0.Coords, EltTy.bits .f32 = 32 ∨ (Rect.block (s := S8x3200000) S8x128000.size (cc0_transform_2 i) (hinb0_2 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def gather_S8x100000_S3200000x1_S8x3200000_0_1_n_n_1_1_81 : GatherDims S8x100000 S3200000x1 S8x3200000 where
  offsetDims := [0]
  collapsedSliceDims := [1]
  operandBatchingDims := []
  startIndicesBatchingDims := []
  startIndexMap := [1]
  indexVectorDim := 1
  sliceSizes := ![8, 1]
  wf := gather_S8x100000_S3200000x1_S8x3200000_0_1_n_n_1_1_81_wf
def scatter_S8x100000_S3200000x1_S8x3200000_0_1_1_1 : ScatterDims S8x100000 S3200000x1 S8x3200000 where
  updateWindowDims := [0]
  insertedWindowDims := [1]
  scatterDimsToOperandDims := [1]
  indexVectorDim := 1
  wf := scatter_S8x100000_S3200000x1_S8x3200000_0_1_1_1_wf

abbrev win0_0 : Pipeline.Window sig grid0 :=
  Pipeline.Window.ofSpec (Memref.whole main_v24) S8x128000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v25) S1x128000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v26) S8x128000.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x100000 : Shape := ⟨2, ![8, 100000]⟩
abbrev S1 : Shape := ⟨1, ![1]⟩
abbrev S3200000 : Shape := ⟨1, ![3200000]⟩
abbrev S2x3200000 : Shape := ⟨2, ![2, 3200000]⟩
abbrev S1x3200000 : Shape := ⟨2, ![1, 3200000]⟩
abbrev S_ : Shape := ⟨0, ![]⟩
abbrev S100000 : Shape := ⟨1, ![100000]⟩
abbrev S3200000x1 : Shape := ⟨2, ![3200000, 1]⟩
abbrev S8x3200000 : Shape := ⟨2, ![8, 3200000]⟩

abbrev nBuf : Space → Nat
  | .hbm => 83
  | .vmem => 0
  | .smem => 0
  | _ => 0

abbrev bufTy : (tb : Table) → Fin (tcTables nBuf tb) → BufTy
  | .hbm, ⟨0, _⟩ => ⟨S8x100000, .f32⟩
  | .hbm, ⟨1, _⟩ => ⟨S1, .f32⟩
  | .hbm, ⟨2, _⟩ => ⟨S3200000, .f32⟩
  | .hbm, ⟨3, _⟩ => ⟨S3200000, .f32⟩
  | .hbm, ⟨4, _⟩ => ⟨S2x3200000, .i32⟩
  | .hbm, ⟨5, _⟩ => ⟨S1x3200000, .i32⟩
  | .hbm, ⟨6, _⟩ => ⟨S3200000, .i32⟩
  | .hbm, ⟨7, _⟩ => ⟨S1x3200000, .i32⟩
  | .hbm, ⟨8, _⟩ => ⟨S3200000, .i32⟩
  | .hbm, ⟨9, _⟩ => ⟨S3200000, .f32⟩
  | .hbm, ⟨10, _⟩ => ⟨S3200000, .f32⟩
  | .hbm, ⟨11, _⟩ => ⟨S_, .f32⟩
  | .hbm, ⟨12, _⟩ => ⟨S3200000, .f32⟩
  | .hbm, ⟨13, _⟩ => ⟨S3200000, .f32⟩
  | .hbm, ⟨14, _⟩ => ⟨S_, .f32⟩
  | .hbm, ⟨15, _⟩ => ⟨S3200000, .f32⟩
  | .hbm, ⟨16, _⟩ => ⟨S3200000, .f32⟩
  | .hbm, ⟨17, _⟩ => ⟨S_, .f32⟩
  | .hbm, ⟨18, _⟩ => ⟨S100000, .f32⟩
  | .hbm, ⟨19, _⟩ => ⟨S3200000x1, .i32⟩
  | .hbm, ⟨20, _⟩ => ⟨S100000, .f32⟩
  | .hbm, ⟨21, _⟩ => ⟨S_, .i32⟩
  | .hbm, ⟨22, _⟩ => ⟨S3200000, .i32⟩
  | .hbm, ⟨23, _⟩ => ⟨S3200000, .i1⟩
  | .hbm, ⟨24, _⟩ => ⟨S_, .i32⟩
  | .hbm, ⟨25, _⟩ => ⟨S3200000, .i32⟩
  | .hbm, ⟨26, _⟩ => ⟨S3200000, .i32⟩
  | .hbm, ⟨27, _⟩ => ⟨S3200000, .i32⟩
  | .hbm, ⟨28, _⟩ => ⟨S3200000x1, .i32⟩
  | .hbm, ⟨29, _⟩ => ⟨S3200000, .f32⟩
  | .hbm, ⟨30, _⟩ => ⟨S_, .f32⟩
  | .hbm, ⟨31, _⟩ => ⟨S3200000, .f32⟩
  | .hbm, ⟨32, _⟩ => ⟨S3200000, .f32⟩
  | .hbm, ⟨33, _⟩ => ⟨S_, .i32⟩
  | .hbm, ⟨34, _⟩ => ⟨S3200000, .i32⟩
  | .hbm, ⟨35, _⟩ => ⟨S3200000, .i1⟩
  | .hbm, ⟨36, _⟩ => ⟨S_, .i32⟩
  | .hbm, ⟨37, _⟩ => ⟨S3200000, .i32⟩
  | .hbm, ⟨38, _⟩ => ⟨S3200000, .i32⟩
  | .hbm, ⟨39, _⟩ => ⟨S3200000, .i32⟩
  | .hbm, ⟨40, _⟩ => ⟨S3200000x1, .i32⟩
  | .hbm, ⟨41, _⟩ => ⟨S8x3200000, .f32⟩
  | .hbm, ⟨42, _⟩ => ⟨S1x3200000, .f32⟩
  | .hbm, ⟨43, _⟩ => ⟨S8x3200000, .f32⟩
  | .hbm, ⟨44, _⟩ => ⟨S8x3200000, .f32⟩
  | .hbm, ⟨45, _⟩ => ⟨S_, .i32⟩
  | .hbm, ⟨46, _⟩ => ⟨S3200000, .i32⟩
  | .hbm, ⟨47, _⟩ => ⟨S3200000, .i1⟩
  | .hbm, ⟨48, _⟩ => ⟨S_, .i32⟩
  | .hbm, ⟨49, _⟩ => ⟨S3200000, .i32⟩
  | .hbm, ⟨50, _⟩ => ⟨S3200000, .i32⟩
  | .hbm, ⟨51, _⟩ => ⟨S3200000, .i32⟩
  | .hbm, ⟨52, _⟩ => ⟨S3200000x1, .i32⟩
  | .hbm, ⟨53, _⟩ => ⟨S8x3200000, .f32⟩
  | .hbm, ⟨54, _⟩ => ⟨S1x3200000, .f32⟩
  | .hbm, ⟨55, _⟩ => ⟨S8x3200000, .f32⟩
  | .hbm, ⟨56, _⟩ => ⟨S8x3200000, .f32⟩
  | .hbm, ⟨57, _⟩ => ⟨S8x3200000, .f32⟩
  | .hbm, ⟨58, _⟩ => ⟨S3200000, .f32⟩
  | .hbm, ⟨59, _⟩ => ⟨S_, .f32⟩
  | .hbm, ⟨60, _⟩ => ⟨S3200000, .f32⟩
  | .hbm, ⟨61, _⟩ => ⟨S3200000, .f32⟩
  | .hbm, ⟨62, _⟩ => ⟨S_, .f32⟩
  | .hbm, ⟨63, _⟩ => ⟨S8x3200000, .f32⟩
  | .hbm, ⟨64, _⟩ => ⟨S8x3200000, .f32⟩
  | .hbm, ⟨65, _⟩ => ⟨S1x3200000, .f32⟩
  | .hbm, ⟨66, _⟩ => ⟨S8x3200000, .f32⟩
  | .hbm, ⟨67, _⟩ => ⟨S8x3200000, .f32⟩
  | .hbm, ⟨68, _⟩ => ⟨S_, .f32⟩
  | .hbm, ⟨69, _⟩ => ⟨S8x100000, .f32⟩
  | .hbm, ⟨70, _⟩ => ⟨S8x3200000, .f32⟩
  | .hbm, ⟨71, _⟩ => ⟨S_, .i32⟩
  | .hbm, ⟨72, _⟩ => ⟨S3200000, .i32⟩
  | .hbm, ⟨73, _⟩ => ⟨S3200000, .i1⟩
  | .hbm, ⟨74, _⟩ => ⟨S_, .i32⟩
  | .hbm, ⟨75, _⟩ => ⟨S3200000, .i32⟩
  | .hbm, ⟨76, _⟩ => ⟨S3200000, .i32⟩
  | .hbm, ⟨77, _⟩ => ⟨S3200000, .i32⟩
  | .hbm, ⟨78, _⟩ => ⟨S3200000x1, .i32⟩
  | .hbm, ⟨79, _⟩ => ⟨S8x100000, .f32⟩
  | .hbm, ⟨80, _⟩ => ⟨S_, .f32⟩
  | .hbm, ⟨81, _⟩ => ⟨S8x100000, .f32⟩
  | .hbm, ⟨82, _⟩ => ⟨S8x100000, .f32⟩
  | _, _ => ⟨S8x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c : Ref sig .tc := ⟨.hbm, 21, rfl⟩
abbrev main_v13 : Ref sig .tc := ⟨.hbm, 22, rfl⟩
abbrev main_v14 : Ref sig .tc := ⟨.hbm, 23, rfl⟩
abbrev main_c_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_c_4 : Ref sig .tc := ⟨.hbm, 33, rfl⟩
abbrev main_v22 : Ref sig .tc := ⟨.hbm, 34, rfl⟩
abbrev main_v23 : Ref sig .tc := ⟨.hbm, 35, rfl⟩
abbrev main_c_5 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_c_6 : Ref sig .tc := ⟨.hbm, 45, rfl⟩
abbrev main_v32 : Ref sig .tc := ⟨.hbm, 46, rfl⟩
abbrev main_v33 : Ref sig .tc := ⟨.hbm, 47, rfl⟩
abbrev main_c_7 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_8 : Ref sig .tc := ⟨.hbm, 59, rfl⟩
abbrev main_v44 : Ref sig .tc := ⟨.hbm, 60, rfl⟩
abbrev main_v45 : Ref sig .tc := ⟨.hbm, 61, rfl⟩
abbrev main_cst_9 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_10 : Ref sig .tc := ⟨.hbm, 68, rfl⟩
abbrev main_v51 : Ref sig .tc := ⟨.hbm, 69, rfl⟩
abbrev main_v52 : Ref sig .tc := ⟨.hbm, 70, rfl⟩
abbrev main_c_11 : Ref sig .tc := ⟨.hbm, 71, rfl⟩
abbrev main_v53 : Ref sig .tc := ⟨.hbm, 72, rfl⟩
abbrev main_v54 : Ref sig .tc := ⟨.hbm, 73, rfl⟩
abbrev main_c_12 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_13 : Ref sig .tc := ⟨.hbm, 80, rfl⟩
abbrev main_v60 : Ref sig .tc := ⟨.hbm, 81, rfl⟩
abbrev main_v61 : Ref sig .tc := ⟨.hbm, 82, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S3200000_S1x3200000_1 : S3200000.BroadcastsInDim S1x3200000 (![1] : Fin 1 → Fin S1x3200000.rank)
  bcast_S1x3200000_S8x3200000_0_1 : S1x3200000.BroadcastsInDim S8x3200000 (![0, 1] : Fin 2 → Fin S8x3200000.rank)
  bcast_S_S8x3200000 : S_.BroadcastsInDim S8x3200000 (![] : Fin 0 → Fin S8x3200000.rank)
  bcast_S_S8x100000 : S_.BroadcastsInDim S8x100000 (![] : Fin 0 → Fin S8x100000.rank)
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  gather_S8x100000_S3200000x1_S8x3200000_0_1_n_n_1_1_81_wf : GatherDims.WF S8x100000 S3200000x1 S8x3200000 [0] [1] [] [1] [] 1 ![8, 1]
  scatter_S8x100000_S3200000x1_S8x3200000_0_1_1_1_wf : ScatterDims.WF S8x100000 S3200000x1 S8x3200000 [0] [1] [1] 1

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def gather_S8x100000_S3200000x1_S8x3200000_0_1_n_n_1_1_81 : GatherDims S8x100000 S3200000x1 S8x3200000 where
  offsetDims := [0]
  collapsedSliceDims := [1]
  operandBatchingDims := []
  startIndicesBatchingDims := []
  startIndexMap := [1]
  indexVectorDim := 1
  sliceSizes := ![8, 1]
  wf := gather_S8x100000_S3200000x1_S8x3200000_0_1_n_n_1_1_81_wf
def scatter_S8x100000_S3200000x1_S8x3200000_0_1_1_1 : ScatterDims S8x100000 S3200000x1 S8x3200000 where
  updateWindowDims := [0]
  insertedWindowDims := [1]
  scatterDimsToOperandDims := [1]
  indexVectorDim := 1
  wf := scatter_S8x100000_S3200000x1_S8x3200000_0_1_1_1_wf

class Facts : Prop extends Facts₀ where

variable [Facts]
-- ==== Proof.EdgeSpec.lean ====
/-
  The two programs' host arithmetic, written once.

  Both programs read the source and target node of every edge off the two rows of the index array (`srcIdx`,
  `dstIdx`), wrap a negative index by the node count and use it as a column of start indices (`wrapCol`), sum the
  edge attributes into their source nodes (`degree`), gather node values per edge (`gatherN` from a node vector,
  `gatherY` from the 8-row node array), lay a per-edge vector over the 8 rows (`rows8`), and finish with
  `1 − (the per-edge update summed into the source nodes)` (`result`).
  One program gathers the node array through an in-range mask (`inRange`, `takeY`), scales each endpoint by the
  gathered reciprocal of the squared degree and subtracts (`kDiff`); its pipelined region then forms the update.
  The other divides each endpoint by the real power `degree ^ 2` gathered per edge (`rPow`), subtracts, and forms
  `|√σ(w) · (−1) · min (·, 0)|` (`rWeight`, `rUpd`).
-/
import proofs.«419857_j10943576670372_3_alg».proof.Proof.Gen.KernelIdeal

noncomputable section

namespace Cert.EdgeSpec

open Idealize.ShloMosaic Cert.KernelIdeal Cert.KernelIdeal.Gen

variable {F : FTy → Type} [FloatOps F]

/-! ## Indices -/

/-- Row 0 of the index array: each edge's source node. -/
def srcIdx (a4 : IVec S2x3200000 32) : IVec S3200000 32 :=
  shapeCast S3200000 (extractStridedSlice S1x3200000 ![0, 0] a4 slices_S2x3200000_S1x3200000_0_0) shapeCasts_S1x3200000_S3200000

/-- Row 1 of the index array: each edge's target node. -/
def dstIdx (a4 : IVec S2x3200000 32) : IVec S3200000 32 :=
  shapeCast S3200000 (extractStridedSlice S1x3200000 ![1, 0] a4 slices_S2x3200000_S1x3200000_1_0) shapeCasts_S1x3200000_S3200000

/-- A negative index counts from the end (plus the node count); the result as a column of start indices. -/
def wrapCol (v : IVec S3200000 32) : IVec S3200000x1 32 :=
  broadcastInDim S3200000x1 ![0] bcast_S3200000_S3200000x1_0
    (select (cmpi .slt v (broadcastInDim S3200000 ![] bcast_S_S3200000 (constantI S_ 32 0#32)))
      (addi v (broadcastInDim S3200000 ![] bcast_S_S3200000 (constantI S_ 32 100000#32))) v)

/-! ## Sums and gathers -/

/-- The edge attributes summed into their source nodes. -/
def degree (a2 : FVec F S3200000 .f32) (a4 : IVec S2x3200000 32) : FVec F S100000 .f32 :=
  Host.scatterAdd scatter_S100000_S3200000x1_S3200000_n_0_0_1
    (broadcastInDim S100000 ![] bcast_S_S100000 (constant S_ .f32 0x00000000#32))
    (broadcastInDim S3200000x1 ![0] bcast_S3200000_S3200000x1_0 (srcIdx a4)) a2

/-- A node vector gathered per edge at the (wrapped) indices `v`. -/
def gatherN (x : FVec F S100000 .f32) (v : IVec S3200000 32) : FVec F S3200000 .f32 :=
  Host.gather gather_S100000_S3200000x1_S3200000_n_0_n_n_0_1_1 x (wrapCol v)

/-- The 8-row node array gathered per edge, column by column, at the (wrapped) indices `v`. -/
def gatherY (a0 : FVec F S8x100000 .f32) (v : IVec S3200000 32) : FVec F S8x3200000 .f32 :=
  Host.gather gather_S8x100000_S3200000x1_S8x3200000_0_1_n_n_1_1_81 a0 (wrapCol v)

/-- A per-edge vector laid over the 8 rows. -/
def rows8 (x : FVec F S3200000 .f32) : FVec F S8x3200000 .f32 :=
  broadcastInDim S8x3200000 ![0, 1] bcast_S1x3200000_S8x3200000_0_1 (broadcastInDim S1x3200000 ![1] bcast_S3200000_S1x3200000_1 x)

/-- `1 −` the per-edge update summed into the source nodes. -/
def result (a4 : IVec S2x3200000 32) (upd : FVec F S8x3200000 .f32) : FVec F S8x100000 .f32 :=
  subf (broadcastInDim S8x100000 ![] bcast_S_S8x100000 (constant S_ .f32 0x3F800000#32))
    (Host.scatterAdd scatter_S8x100000_S3200000x1_S8x3200000_0_1_1_1
      (broadcastInDim S8x100000 ![] bcast_S_S8x100000 (constant S_ .f32 0x00000000#32)) (wrapCol (srcIdx a4)) upd)

/-! ## The masked gather and the scaled difference -/

/-- The in-range mask of a fill-mode gather: the wrapped index lies in `[0, 99999]`, laid over the 8 rows. -/
def inRange (v : IVec S3200000 32) : IVec S8x3200000 1 :=
  broadcastInDim S8x3200000 ![1] bcast_S3200000_S8x3200000_1
    (Host.reduce IntOp.andi
      (andi (cmpi .sge (wrapCol v) (broadcastInDim S3200000x1 ![] bcast_S_S3200000x1 (constantI S_ 32 0#32)))
        (cmpi .sle (wrapCol v) (broadcastInDim S3200000x1 ![0, 1] bcast_S1x1_S3200000x1_0_1
          (broadcastInDim S1x1 ![1] bcast_S1_S1x1_1 (constantI S1 32 99999#32)))))
      (constantI S_ 1 1#1) reducesTo_S3200000x1_S3200000_d1 h_S_)

/-- The node array gathered per edge where the index is in range, a fill word elsewhere. -/
def takeY (a0 : FVec F S8x100000 .f32) (v : IVec S3200000 32) : FVec F S8x3200000 .f32 :=
  select (inRange v) (gatherY a0 v) (broadcastInDim S8x3200000 ![] bcast_S_S8x3200000 (constant S_ .f32 0x7FC00000#32))

/-- The reciprocal of the squared degree, per node. -/
def invSq (a2 : FVec F S3200000 .f32) (a4 : IVec S2x3200000 32) : FVec F S100000 .f32 :=
  Host.divf (broadcastInDim S100000 ![] bcast_S_S100000 (constant S_ .f32 0x3F800000#32)) (mulf (degree a2 a4) (degree a2 a4))

/-- Target value times the source's scale, minus source value times the source's scale. -/
def kDiff (a0 : FVec F S8x100000 .f32) (a2 : FVec F S3200000 .f32) (a4 : IVec S2x3200000 32) : FVec F S8x3200000 .f32 :=
  subf (mulf (takeY a0 (dstIdx a4)) (rows8 (gatherN (invSq a2 a4) (srcIdx a4))))
    (mulf (takeY a0 (srcIdx a4)) (rows8 (gatherN (invSq a2 a4) (srcIdx a4))))

/-- The weights as a one-row array. -/
def kWeight (a3 : FVec F S3200000 .f32) : FVec F S1x3200000 .f32 :=
  shapeCast S1x3200000 a3 shapeCasts_S3200000_S1x3200000

/-! ## The divided difference and its absolute value -/

/-- `√(1 / (1 + e^(−w))) · (−1)`, per edge. -/
def rWeight (a3 : FVec F S3200000 .f32) : FVec F S3200000 .f32 :=
  mulf (Host.sqrt (Host.divf (broadcastInDim S3200000 ![] bcast_S_S3200000 (constant S_ .f32 0x3F800000#32))
      (addf (broadcastInDim S3200000 ![] bcast_S_S3200000 (constant S_ .f32 0x3F800000#32)) (Host.exp (Host.negf a3)))))
    (broadcastInDim S3200000 ![] bcast_S_S3200000 (constant S_ .f32 0xBF800000#32))

/-- The source's degree to the power 2, per edge. -/
def rPow (a2 : FVec F S3200000 .f32) (a4 : IVec S2x3200000 32) : FVec F S3200000 .f32 :=
  Host.powf (gatherN (degree a2 a4) (srcIdx a4)) (broadcastInDim S3200000 ![] bcast_S_S3200000 (constant S_ .f32 0x40000000#32))

/-- `|√σ(w) · (−1) · min (target / degree² − source / degree², 0)|`, per row and edge. -/
def rUpd (a0 : FVec F S8x100000 .f32) (a2 a3 : FVec F S3200000 .f32) (a4 : IVec S2x3200000 32) : FVec F S8x3200000 .f32 :=
  Host.absf (mulf (rows8 (rWeight a3))
    (minimumf (subf (Host.divf (gatherY a0 (dstIdx a4)) (rows8 (rPow a2 a4))) (Host.divf (gatherY a0 (srcIdx a4)) (rows8 (rPow a2 a4))))
      (broadcastInDim S8x3200000 ![] bcast_S_S8x3200000 (constant S_ .f32 0x00000000#32))))

end Cert.EdgeSpec

end
-- ==== Proof.LibTRef.lean ====
/-
  A typed reference's two transports are inverse to each other.

  A module-local function's host operations read and write their buffers through a typed reference, which carries
  contents between the value's type and the buffer's along the equation of the two. Whatever that equation's proof,
  transporting there and back is the identity (`ofBuf_toBuf`, `toBuf_ofBuf`): a composed term of such operations
  reads as the plain composition of their functions.
-/
import Idealize.ShloMosaic.Lib.StableHlo

noncomputable section

namespace Cert.LibTRef

open Idealize.ShloMosaic Idealize.ShloMosaic.StableHlo

variable {sig : RefSig} {T : BufTy} {Val : EltTy → Type}

/-- Contents carried to the buffer's type and back are the contents. -/
theorem ofBuf_toBuf (x : TRef sig T) (v : T.Contents Val) : x.ofBuf (x.toBuf v) = v := by
  obtain ⟨r, rfl, h2, h3⟩ := x
  rfl

/-- Contents carried to the value's type and back are the contents. -/
theorem toBuf_ofBuf (x : TRef sig T) (u : x.ref.ty.Contents Val) : x.toBuf (x.ofBuf u) = u := by
  obtain ⟨r, rfl, h2, h3⟩ := x
  rfl

end Cert.LibTRef

end
-- ==== Proof.KernelStages.lean ====
/-
  The kernel program's host lines before its region, one stretch at a time.

  The lines come in four stretches: the main line up to the gathered scale, the two masked gathers of the node
  array (at the source and at the target indices), and the main line's products and difference. Each stretch is
  read here from ANY contents `W` of the buffers it finds: what it leaves in the buffers later lines read, as the
  specification's terms of what it found; a buffer a stretch does not write keeps its contents.
-/
import proofs.«419857_j10943576670372_3_alg».proof.Proof.EdgeSpec
import proofs.«419857_j10943576670372_3_alg».proof.Proof.Gen.KernelIdeal.Launch
import proofs.«419857_j10943576670372_3_alg».proof.Proof.LibTRef
import Idealize.ShloMosaic.Lib.StableHlo.Run

noncomputable section

namespace Cert.KernelIdeal.EdgeStages

open Cert.KernelIdeal Cert.KernelIdeal.Gen Idealize.ShloMosaic Idealize.ShloMosaic.TcCoe Idealize.SL.Sem
open Idealize.ShloMosaic.StableHlo Cert.EdgeSpec Cert.LibTRef

variable {F : FTy → Type} [FloatOps F]
variable (W : Valuation τ sig (Elt F))

/-! ## The typed references at the ends of the two gathers: at a literal reference the transport is the identity -/

theorem to_v17 (v : (⟨S8x3200000, .f32⟩ : BufTy).Contents (Elt F)) : (TRef.of main_v17 : TRef sig ⟨S8x3200000, .f32⟩).toBuf v = v := rfl
theorem to_v18 (v : (⟨S8x3200000, .f32⟩ : BufTy).Contents (Elt F)) : (TRef.of main_v18 : TRef sig ⟨S8x3200000, .f32⟩).toBuf v = v := rfl
theorem of_v1 (u : main_v1.ty.Contents (Elt F)) : (TRef.of main_v1 : TRef sig ⟨S3200000, .i32⟩).ofBuf u = u := rfl
theorem of_v3 (u : main_v3.ty.Contents (Elt F)) : (TRef.of main_v3 : TRef sig ⟨S3200000, .i32⟩).ofBuf u = u := rfl
theorem of_arg0 (u : main_arg0.ty.Contents (Elt F)) : (TRef.of main_arg0 : TRef sig ⟨S8x100000, .f32⟩).ofBuf u = u := rfl

/-! ## The main line up to the gathered scale -/

theorem s0_src : after hostOps0 W (Proc.devRef .tc main_v1) = srcIdx (W (Proc.devRef .tc main_arg4)) := by
  simp only [hostOps0]; after_results_simp; rfl
theorem s0_dst : after hostOps0 W (Proc.devRef .tc main_v3) = dstIdx (W (Proc.devRef .tc main_arg4)) := by
  simp only [hostOps0]; after_results_simp; rfl
theorem s0_scale : after hostOps0 W (Proc.devRef .tc main_v16)
    = gatherN (invSq (W (Proc.devRef .tc main_arg2)) (W (Proc.devRef .tc main_arg4))) (srcIdx (W (Proc.devRef .tc main_arg4))) := by
  simp only [hostOps0]; after_results_simp; rfl
theorem s0_y : after hostOps0 W (Proc.devRef .tc main_arg0) = W (Proc.devRef .tc main_arg0) := by
  simp only [hostOps0]; after_results_simp
theorem s0_w : after hostOps0 W (Proc.devRef .tc main_arg3) = W (Proc.devRef .tc main_arg3) := by
  simp only [hostOps0]; after_results_simp

/-! ## The masked gather at the source indices -/

theorem s1_take : after hostOps0_1 W (Proc.devRef .tc main_v17) = takeY (W (Proc.devRef .tc main_arg0)) (W (Proc.devRef .tc main_v1)) := by
  simp only [hostOps0_1]; after_results_simp
  simp only [ofBuf_toBuf, to_v17, of_v1, of_arg0]
  rfl
theorem s1_dst : after hostOps0_1 W (Proc.devRef .tc main_v3) = W (Proc.devRef .tc main_v3) := by
  simp only [hostOps0_1]; after_results_simp
theorem s1_scale : after hostOps0_1 W (Proc.devRef .tc main_v16) = W (Proc.devRef .tc main_v16) := by
  simp only [hostOps0_1]; after_results_simp
theorem s1_y : after hostOps0_1 W (Proc.devRef .tc main_arg0) = W (Proc.devRef .tc main_arg0) := by
  simp only [hostOps0_1]; after_results_simp
theorem s1_w : after hostOps0_1 W (Proc.devRef .tc main_arg3) = W (Proc.devRef .tc main_arg3) := by
  simp only [hostOps0_1]; after_results_simp
theorem s1_src : after hostOps0_1 W (Proc.devRef .tc main_v1) = W (Proc.devRef .tc main_v1) := by
  simp only [hostOps0_1]; after_results_simp

/-! ## The masked gather at the target indices -/

theorem s2_take : after hostOps0_2 W (Proc.devRef .tc main_v18) = takeY (W (Proc.devRef .tc main_arg0)) (W (Proc.devRef .tc main_v3)) := by
  simp only [hostOps0_2]; after_results_simp
  simp only [ofBuf_toBuf, to_v18, of_v3, of_arg0]
  rfl
theorem s2_take0 : after hostOps0_2 W (Proc.devRef .tc main_v17) = W (Proc.devRef .tc main_v17) := by
  simp only [hostOps0_2]; after_results_simp
theorem s2_scale : after hostOps0_2 W (Proc.devRef .tc main_v16) = W (Proc.devRef .tc main_v16) := by
  simp only [hostOps0_2]; after_results_simp
theorem s2_w : after hostOps0_2 W (Proc.devRef .tc main_arg3) = W (Proc.devRef .tc main_arg3) := by
  simp only [hostOps0_2]; after_results_simp
theorem s2_src : after hostOps0_2 W (Proc.devRef .tc main_v1) = W (Proc.devRef .tc main_v1) := by
  simp only [hostOps0_2]; after_results_simp

/-! ## The products and the difference -/

theorem s3_diff : after hostOps0_3 W (Proc.devRef .tc main_v24)
    = subf (mulf (W (Proc.devRef .tc main_v18)) (rows8 (W (Proc.devRef .tc main_v16)))) (mulf (W (Proc.devRef .tc main_v17)) (rows8 (W (Proc.devRef .tc main_v16)))) := by
  simp only [hostOps0_3]; after_results_simp; rfl
theorem s3_weight : after hostOps0_3 W (Proc.devRef .tc main_v25) = kWeight (W (Proc.devRef .tc main_arg3)) := by
  simp only [hostOps0_3]; after_results_simp; rfl
theorem s3_src : after hostOps0_3 W (Proc.devRef .tc main_v1) = W (Proc.devRef .tc main_v1) := by
  simp only [hostOps0_3]; after_results_simp

end Cert.KernelIdeal.EdgeStages

end
-- ==== Proof.EdgeRegion.lean ====
/-
  What the one pipelined region leaves in its output array, as ONE function of its two input arrays.

  The region walks the 3 200 000 edge columns in 25 blocks of 128 000. At a point its body reads the block of the
  difference array `d` (8 rows) and of the weight row `w` (1 row) and stores, at row `p` and column `q` of the block,
  `√σ(w[0, q]) · max (0 − d[p, q], 0)`. Every block sits at the same rows and columns in all three arrays, the
  weight's on its single row, so point `t` writes back block `t` of the whole-array function `edgeTerm d w`;
  column `e` lies in block `e / 128000`, so the blocks cover the array and it ends holding `edgeTerm d w`.
-/
import proofs.«419857_j10943576670372_3_alg».proof.Proof.Gen.KernelIdeal.Frame
import Idealize.ShloMosaic.Lib.Pipeline.Value
import Idealize.ShloMosaic.Lib.ValueIdx

noncomputable section

namespace Cert.KernelIdeal.EdgeRegion

open Cert.KernelIdeal Cert.KernelIdeal.Gen Idealize.ShloMosaic Idealize.ShloMosaic.TcCoe Idealize.SL.Sem
open Idealize.ShloMosaic.Pipeline (Dat)
open Idealize.ShloMosaic.ValueIdx

variable {F : FTy → Type} [FloatOps F]

/-- Row 0, column `e` of a one-row array. -/
abbrev rowIdx (e : Fin 3200000) : S1x3200000.Idx := ix2 (0 : Fin 1) e

/-- The region's result at edge column `i 1`, row `i 0`: the weight's logistic square root times the positive part
    of the negated difference. -/
def edgeTerm (d : S8x3200000.Idx → Elt F .f32) (w : S1x3200000.Idx → Elt F .f32) : S8x3200000.Idx → Elt F .f32 :=
  fun i => FloatOps.mulf (FloatOps.sqrt (FloatOps.logistic (w (rowIdx (i 1)))))
    (FloatOps.maximumf (FloatOps.subf (Scalar.ofBits .f32 0x00000000#32) (d i)) (Scalar.ofBits .f32 0x00000000#32))

/-- The body's stored value at an index of the block: the weight block is read on its one row, at the same column. -/
theorem payload_apply (x0 : Vec F S8x128000 .f32) (x1 : Vec F S1x128000 .f32) (j : S8x128000.Idx) (k : S1x128000.Idx)
    (hk0 : (k 0).val = 0) (hk1 : (k 1).val = (j 1).val) :
    k0_pay1 x0 x1 j = FloatOps.mulf (FloatOps.sqrt (FloatOps.logistic (x1 k)))
      (FloatOps.maximumf (FloatOps.subf (Scalar.ofBits .f32 0x00000000#32) (x0 j)) (Scalar.ofBits .f32 0x00000000#32)) := by
  unfold k0_pay1
  rw [shapeCast_self, shapeCast_self]
  show FloatOps.mulf (broadcastTo S8x128000 (sqrt (logistic x1)) broadcasts_S1x128000_S8x128000 j) _ = _
  rw [broadcastTo_apply (sqrt (logistic x1)) broadcasts_S1x128000_S8x128000 j k (fun a => by
    match a with
    | ⟨0, _⟩ => exact hk0
    | ⟨1, _⟩ => exact hk1)]
  rfl

variable (m : (ℓ : Loc nD τ sig) → Buf (Elt F) ℓ) (ρ : Dev nD → PrngReg)

theorem origin_zero : (![0, 0] : Fin 2 → Nat) = fun _ => 0 := funext fun a => by fin_cases a <;> rfl

/-- The three windows' block indices at a point: all on block row 0, and the same block column, which is the point. -/
theorem block_indices : ∀ t : Fin cfg0.N, win0_0.index t (0 : Fin 2) = 0
    ∧ win0_0.index t (1 : Fin 2) = win0_2.index t (1 : Fin 2)
    ∧ win0_1.index t (0 : Fin 2) = 0
    ∧ win0_1.index t (1 : Fin 2) = win0_2.index t (1 : Fin 2)
    ∧ win0_2.index t (0 : Fin 2) = 0 :=
  (by decide +kernel : ∀ t : Fin grid0.N, _)

/-- Every block column is some point's. -/
theorem block_onto : ∀ q : Fin 25, ∃ t : Fin cfg0.N, win0_2.index t = ![0, q.val] :=
  (by decide +kernel : ∀ q : Fin 25, ∃ t : Fin grid0.N, win0_2.index t = ![0, q.val])

set_option maxHeartbeats 1000000 in
/-- What point `t` writes back is block `t` of `edgeTerm` of the two input arrays as the region finds them. -/
theorem flushed_eq (c : Dev nD) (t : Fin cfg0.N) :
    (dats m 0 c).flushed 2 t = ((cfg0.win 2).blk t).view.read (Elt F) (edgeTerm (V m c main_v24) (V m c main_v25)) := by
  show (cfg0.win 2).cut (grid0.coords t) ((dats m 0 c).after 2 t) = _
  rw [after0_2]
  unfold out0_2
  rw [View.canon_unit_zero origin_zero]
  simp only [View.ld_unit_zero (S := S8x128000) origin_zero, View.ld_unit_zero (S := S1x128000) origin_zero]
  obtain ⟨e0, e1, e2, e3, e4⟩ := block_indices t
  funext j
  show k0_pay1 (iblk m c 0 t) (iblk m c 1 t) j = edgeTerm (V m c main_v24) (V m c main_v25) (((cfg0.win 2).blk t).view.emb j)
  refine (payload_apply (iblk m c 0 t) (iblk m c 1 t) j (ix2 (0 : Fin 1) (j 1)) rfl rfl).trans ?_
  unfold edgeTerm
  show FloatOps.mulf (FloatOps.sqrt (FloatOps.logistic (V m c main_v25 (((cfg0.win 1).blk t).view.emb (ix2 (0 : Fin 1) (j 1))))))
      (FloatOps.maximumf (FloatOps.subf (Scalar.ofBits .f32 0x00000000#32) (V m c main_v24 (((cfg0.win 0).blk t).view.emb j))) (Scalar.ofBits .f32 0x00000000#32))
    = FloatOps.mulf (FloatOps.sqrt (FloatOps.logistic (V m c main_v25 (rowIdx ((((cfg0.win 2).blk t).view.emb j) 1)))))
      (FloatOps.maximumf (FloatOps.subf (Scalar.ofBits .f32 0x00000000#32) (V m c main_v24 (((cfg0.win 2).blk t).view.emb j))) (Scalar.ofBits .f32 0x00000000#32))
  have h0 : ((cfg0.win 0).blk t).view.emb j = ((cfg0.win 2).blk t).view.emb j := by
    funext a; apply Fin.ext
    match a with
    | ⟨0, _⟩ => show win0_0.index t (0 : Fin 2) * 8 + 1 * (j 0).val = win0_2.index t (0 : Fin 2) * 8 + 1 * (j 0).val; omega
    | ⟨1, _⟩ => show win0_0.index t (1 : Fin 2) * 128000 + 1 * (j 1).val = win0_2.index t (1 : Fin 2) * 128000 + 1 * (j 1).val; omega
  have h1 : ((cfg0.win 1).blk t).view.emb (ix2 (0 : Fin 1) (j 1)) = rowIdx ((((cfg0.win 2).blk t).view.emb j) 1) := by
    funext a; apply Fin.ext
    match a with
    | ⟨0, _⟩ => show win0_1.index t (0 : Fin 2) * 1 + 1 * 0 = 0; omega
    | ⟨1, _⟩ => show win0_1.index t (1 : Fin 2) * 128000 + 1 * (j 1).val = win0_2.index t (1 : Fin 2) * 128000 + 1 * (j 1).val; omega
  rw [h0, h1]

/-- An index of the output array is in point `t`'s block iff each coordinate is in the block's range on its axis. -/
theorem mem_block (t : Fin cfg0.N) (i : S8x3200000.Idx) :
    i ∈ ((cfg0.win 2).blk t).view.set ↔ ∀ a : Fin 2, win0_2.index t a * S8x128000.size a ≤ (i a).val ∧ (i a).val < win0_2.index t a * S8x128000.size a + S8x128000.size a := by
  show i ∈ ((View.whole main_v26).slice (win0_2.rect t)).set ↔ _
  rw [View.set_slice_whole, Rect.mem_set_unit]
  exact Iff.rfl

/-- The blocks cover the output array: column `e` is in block `e / 128000`. -/
theorem covered (i : S8x3200000.Idx) : ∃ t : Fin cfg0.N, (cfg0.win 2).flush t = true ∧ i ∈ ((cfg0.win 2).blk t).view.set := by
  have hi0 : (i 0).val < 8 := (i 0).isLt
  have hi1 : (i 1).val < 3200000 := (i 1).isLt
  obtain ⟨t, ht⟩ := block_onto ⟨(i 1).val / 128000, by omega⟩
  have q0 : win0_2.index t (0 : Fin 2) = 0 := congrFun ht 0
  have q1 : win0_2.index t (1 : Fin 2) = (i 1).val / 128000 := congrFun ht 1
  refine ⟨t, flush0_2 t, ?_⟩
  rw [mem_block]
  intro a
  match a with
  | ⟨0, _⟩ => show win0_2.index t (0 : Fin 2) * 8 ≤ (i 0).val ∧ (i 0).val < win0_2.index t (0 : Fin 2) * 8 + 8; omega
  | ⟨1, _⟩ => show win0_2.index t (1 : Fin 2) * 128000 ≤ (i 1).val ∧ (i 1).val < win0_2.index t (1 : Fin 2) * 128000 + 128000; omega

/-- The output array after the region: `edgeTerm` of the two input arrays. -/
theorem region_value (c : Dev nD) :
    (dats m 0 c).arrAt 2 cfg0.N = edgeTerm (V m c main_v24) (V m c main_v25) :=
  (dats m 0 c).arrAt_eq_of_cover 2 (edgeTerm (V m c main_v24) (V m c main_v25)) (fun t _ => flushed_eq m c t) covered

end Cert.KernelIdeal.EdgeRegion

end
-- ==== Proof.LibAfter.lean ====
/-
  Straight lines of host operations run one after the other, and what a line leaves alone.

  `StableHlo.after ops V` is the device's buffer contents once the operations `ops` have run in order from contents `V`.
  Two facts about it, for reading one value out of a long program cut into chunks: a concatenation of two lines runs the
  first and then the second (`after_append`), and a line every operation of which writes only references of a list `W`
  leaves every reference outside `W` at what it held (`keep`).
-/
import Idealize.ShloMosaic.Lib.StableHlo.Run

noncomputable section

namespace Cert.LibAfter

open Idealize.ShloMosaic Idealize.ShloMosaic.StableHlo

variable {τ : Topo} {sig : RefSig} {Val : EltTy → Type}

/-- The contents after `l₁ ++ l₂` are the contents after `l₂`, run from the contents after `l₁`. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- Every operation of the line writes only references of the list `W`. -/
def WritesIn (ops : List (HloOp τ sig Val)) (W : List (Ref sig .tc)) : Prop :=
  ops.Forall fun op => op.writes ⊆ (W.map (Proc.devRef (τ := τ) .tc)).toFinset

/-- A reference outside the list keeps its contents through the line. -/
theorem keep {ops : List (HloOp τ sig Val)} {W : List (Ref sig .tc)} (h : WritesIn ops W) (V : Valuation τ sig Val)
    {r : Ref sig .tc} (hr : r ∉ W) : after ops V (Proc.devRef .tc r) = V (Proc.devRef .tc r) :=
  after_of_writes_sub ops V h hr

/-- The single written reference of an operation is in the list: the form in which `WritesIn` is checked, one
    operation at a time. -/
theorem singleton_sub {W : List (Ref sig .tc)} {y : Ref sig .tc} (hy : y ∈ W) :
    ({Proc.devRef (τ := τ) .tc y} : Finset (DevRef τ sig)) ⊆ (W.map (Proc.devRef (τ := τ) .tc)).toFinset :=
  Finset.singleton_subset_iff.mpr (List.mem_toFinset.mpr (List.mem_map.mpr ⟨y, hy, rfl⟩))

end Cert.LibAfter

end
-- ==== Proof.KernelHost.lean ====
/-
  The kernel program around its region, read back as the specification's terms.

  Before the region the host lines (four stretches, read one at a time) leave, in the region's two input arrays, the scaled difference `kDiff` of the
  node values, the edge attributes and the index array, and the weights as a one-row array `kWeight`; the source
  indices are a host buffer the region never touches. After the region the host lines sum the region's output into
  the source nodes and subtract from 1: with the region's output at `edgeTerm` of its inputs (the blocks cover
  the array), the program's result is `result` of that.
-/
import proofs.«419857_j10943576670372_3_alg».proof.Proof.KernelStages
import proofs.«419857_j10943576670372_3_alg».proof.Proof.EdgeRegion
import proofs.«419857_j10943576670372_3_alg».proof.Proof.LibAfter

noncomputable section

namespace Cert.KernelIdeal.EdgeHost

open Cert.KernelIdeal Cert.KernelIdeal.Gen Idealize.ShloMosaic Idealize.ShloMosaic.TcCoe Idealize.SL.Sem
open Idealize.ShloMosaic.StableHlo Cert.EdgeSpec Cert.KernelIdeal.EdgeRegion Cert.KernelIdeal.EdgeStages

variable {F : FTy → Type} [FloatOps F]
variable (m : (ℓ : Loc nD τ sig) → Buf (Elt F) ℓ) (ρ : Dev nD → PrngReg)

/-- The contents the region finds: the four host stretches run one after the other from the launch contents. -/
theorem V0_eq (c : Dev nD) :
    V0 m c = after hostOps0_3 (after hostOps0_2 (after hostOps0_1 (after hostOps0 (fun b => m (c, b))))) := by
  show StableHlo.after (List.flatten [hostOps0, hostOps0_1, hostOps0_2, hostOps0_3]) (fun b => m (c, b)) = _
  simp only [List.flatten_cons, List.flatten_nil, List.append_nil]
  rw [Cert.LibAfter.after_append, Cert.LibAfter.after_append, Cert.LibAfter.after_append]

/-- The region's first input array is the scaled difference of the arguments. -/
theorem diff_eq (c : Dev nD) :
    V m c main_v24 = kDiff (m ((c : Thread nD τ).loc main_arg0)) (m ((c : Thread nD τ).loc main_arg2)) (m ((c : Thread nD τ).loc main_arg4)) := by
  show V0 m c (Proc.devRef .tc main_v24) = _
  rw [V0_eq]
  rw [s3_diff, s2_take, s2_take0, s2_scale, s1_take, s1_y, s1_dst, s1_scale, s0_y, s0_dst, s0_src, s0_scale]
  rfl

/-- The region's second input array is the weights as one row. -/
theorem weight_eq (c : Dev nD) : V m c main_v25 = kWeight (m ((c : Thread nD τ).loc main_arg3)) := by
  show V0 m c (Proc.devRef .tc main_v25) = _
  rw [V0_eq]
  rw [s3_weight, s2_w, s1_w, s0_w]

/-- The source indices, as the host lines before the region leave them. -/
theorem src_eq (c : Dev nD) : V m c main_v1 = srcIdx (m ((c : Thread nD τ).loc main_arg4)) := by
  show V0 m c (Proc.devRef .tc main_v1) = _
  rw [V0_eq]
  rw [s3_src, s2_src, s1_src, s0_src]

/-- The program's result after the host lines that follow the region. -/
theorem result_eq (c : Dev nD) :
    Pipeline.afterTail₀ cfgs (dats m) 0 (V0 m) [hostOps1] c main_v36
      = result (m ((c : Thread nD τ).loc main_arg4))
          (edgeTerm (kDiff (m ((c : Thread nD τ).loc main_arg0)) (m ((c : Thread nD τ).loc main_arg2)) (m ((c : Thread nD τ).loc main_arg4)))
            (kWeight (m ((c : Thread nD τ).loc main_arg3)))) := by
  unfold Pipeline.afterTail₀
  simp only [hostOps1, List.flatten_cons, List.flatten_nil, List.append_nil, List.cons_append, List.nil_append]
  after_results_simp
  have h1 : Pipeline.withArrays (cfgs 0).spec c (V0 m c) (fun w => (dats m 0 c).arrAt w (cfgs 0).N) (Proc.devRef .tc main_v1)
      = srcIdx (m ((c : Thread nD τ).loc main_arg4)) :=
    (Pipeline.withArrays_of_ne _ c (V0 m c) _ main_v1 (by exact (by decide : ∀ w, Pipeline.arrRef spec0 w ≠ main_v1))).trans (src_eq m c)
  have h26 : Pipeline.withArrays (cfgs 0).spec c (V0 m c) (fun w => (dats m 0 c).arrAt w (cfgs 0).N) (Proc.devRef .tc main_v26)
      = edgeTerm (kDiff (m ((c : Thread nD τ).loc main_arg0)) (m ((c : Thread nD τ).loc main_arg2)) (m ((c : Thread nD τ).loc main_arg4)))
          (kWeight (m ((c : Thread nD τ).loc main_arg3))) :=
    (Pipeline.withArrays_arr spec0 launch0.win.arr_inj c _ _ 2).trans
      ((region_value m c).trans (by rw [diff_eq m c, weight_eq m c]))
  rw [h1, h26]
  rfl

/-- The kernel program's run: it terminates with its result at `result` of the region's `edgeTerm`, the arguments
    unchanged. -/
theorem run : θ_run defs (onTc (τ := τ) (main (F := F))) ⟨m, fun _ => 0, ρ⟩ (fun r => ∀ c : Dev nD,
      r.2.mem ((c.tc : Thread nD τ).loc main_v36)
          = result (m ((c : Thread nD τ).loc main_arg4))
              (edgeTerm (kDiff (m ((c : Thread nD τ).loc main_arg0)) (m ((c : Thread nD τ).loc main_arg2)) (m ((c : Thread nD τ).loc main_arg4)))
                (kWeight (m ((c : Thread nD τ).loc main_arg3))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v36 (Pipeline.mem_restRefs_of main_v36 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.EdgeHost

end
-- ==== Proof.RefValue.lean ====
/-
  The reference program's result, read back as the specification's terms: `1 −` the per-edge update `rUpd`
  summed into the source nodes. Its generated run states the composed term of its host lines; that term is
  `result` of `rUpd` of the arguments, line by line.
-/
import proofs.«419857_j10943576670372_3_alg».proof.Proof.EdgeSpec
import proofs.«419857_j10943576670372_3_alg».proof.Proof.Gen.ReferenceIdeal.Run

noncomputable section

namespace Cert.ReferenceIdeal.EdgeRef

open Cert.ReferenceIdeal Cert.ReferenceIdeal.Gen Cert.ReferenceIdeal.Value Idealize.ShloMosaic Idealize.ShloMosaic.TcCoe Idealize.SL.Sem
open Cert.EdgeSpec

variable {F : FTy → Type} [FloatOps F]

set_option maxRecDepth 8192 in
/-- The reference run's result term is `result` of `rUpd` of the argument arrays. -/
theorem res_eq (m : (ℓ : Loc nD τ sig) → Buf (Elt F) ℓ) (c : Dev nD) :
    res_main_v61 m c
      = result (m ((c.tc : Thread nD τ).loc main_arg4))
          (rUpd (m ((c.tc : Thread nD τ).loc main_arg0)) (m ((c.tc : Thread nD τ).loc main_arg2))
            (m ((c.tc : Thread nD τ).loc main_arg3)) (m ((c.tc : Thread nD τ).loc main_arg4))) := by
  unfold res_main_v61
  rfl

end Cert.ReferenceIdeal.EdgeRef

end
-- ==== Proof.EdgeLaw.lean ====
/-
  The arithmetic of one edge, on the extended reals.

  For an edge with source-degree `x`, endpoint values `yt`, `ys` and weight `w`, one program forms
  `|√σ(w) · (−1) · min (yt / x² − ys / x², 0)|` with `x²` the real power `x ^ 2`, the other
  `√σ(w) · max (0 − (yt · (1 / (x·x)) − ys · (1 / (x·x))), 0)`. Two laws join them:
  * off `x = 0` a quotient by `x ^ 2` is the product with the reciprocal of `x · x` — at a real `x` because
    `x ^ 2 = x · x`, at `±∞` because both reciprocals are `0` (`quot_sq`); at `x = 0` the two differ
    (`0 / 0` against `0 · ∞`), which is why the degree is kept off zero;
  * for `a ≥ 0`, `|a · (−1) · min (d, 0)| = a · max (0 − d, 0)`, at every extended real `d` (`abs_neg_min`).
  The logistic function's square root is non-negative everywhere (`sqrt_logistic_nonneg`).
-/
import Idealize.ShloMosaic.PureOps.Ideal

noncomputable section

namespace Cert.EdgeLaw

open Idealize.ShloMosaic

/-! ## The four float words the two programs spell -/

theorem ofBits_zero : Ideal.ofBits .f32 0x00000000#32 = 0 := by
  simp [Ideal.ofBits, Ideal.ieee]

theorem ofBits_one : Ideal.ofBits .f32 0x3F800000#32 = 1 := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

theorem ofBits_neg_one : Ideal.ofBits .f32 0xBF800000#32 = -1 := by
  simp [Ideal.ofBits, Ideal.ieee, -EReal.coe_mul]; norm_num

/-! ## A quotient by the square -/

/-- Off zero, dividing by the real power `x ^ 2` is multiplying by the reciprocal of `x · x`. -/
theorem quot_sq (x y : EReal) (hx : x ≠ 0) :
    Ideal.div y (Ideal.pow x ((2 : ℝ) : EReal)) = y * Ideal.div 1 (x * x) := by
  induction x using EReal.rec with
  | bot =>
    have h1 : Ideal.pow ⊥ ((2 : ℝ) : EReal) = ⊥ := rfl
    rw [h1, EReal.bot_mul_bot, Ideal.div, if_neg EReal.bot_ne_zero, Ideal.div, if_neg EReal.top_ne_zero,
      EReal.inv_bot, EReal.inv_top, mul_zero, mul_zero, mul_zero]
  | coe r =>
    have hr : r ≠ 0 := fun h => hx (by rw [h]; rfl)
    have h1 : Ideal.pow (r : EReal) ((2 : ℝ) : EReal) = ((r * r : ℝ) : EReal) := by
      show ((Real.rpow r 2 : ℝ) : EReal) = _
      rw [Real.rpow_eq_pow, Real.rpow_two, sq]
    have hne : ((r * r : ℝ) : EReal) ≠ 0 := by
      have : r * r ≠ 0 := mul_ne_zero hr hr
      exact_mod_cast this
    rw [h1, ← EReal.coe_mul, Ideal.div, if_neg hne, Ideal.div, if_neg hne, one_mul]
  | top =>
    have h1 : Ideal.pow ⊤ ((2 : ℝ) : EReal) = ⊤ := by
      show (if (0 : EReal) < ((2 : ℝ) : EReal) then (⊤ : EReal) else _) = ⊤
      rw [if_pos (by exact_mod_cast (by norm_num : (0 : ℝ) < 2))]
    rw [h1, EReal.top_mul_top, Ideal.div, if_neg EReal.top_ne_zero, Ideal.div, if_neg EReal.top_ne_zero,
      EReal.inv_top, mul_zero, mul_zero, mul_zero]

/-! ## The sign law -/

/-- For `a ≥ 0`: the absolute value of `a · (−1) · min (d, 0)` is `a · max (0 − d, 0)`. -/
theorem abs_neg_min (a d : EReal) (ha : 0 ≤ a) :
    max ((a * (-1)) * min d 0) (-((a * (-1)) * min d 0)) = a * max (0 - d) 0 := by
  have h0 : (0 : EReal) - d = -d := by rw [sub_eq_add_neg, zero_add]
  rw [h0]
  rcases le_total d 0 with hd | hd
  · have hnd : (0 : EReal) ≤ -d := EReal.neg_nonneg.mpr hd
    rw [min_eq_left hd, max_eq_left hnd, mul_neg_one, neg_mul, ← mul_neg]
    have hz : (0 : EReal) ≤ a * -d := EReal.mul_nonneg ha hnd
    have hz' : -(a * -d) ≤ 0 := by rw [EReal.neg_le, neg_zero]; exact hz
    exact max_eq_left (le_trans hz' hz)
  · have hnd : -d ≤ 0 := by rw [EReal.neg_le, neg_zero]; exact hd
    rw [min_eq_right hd, max_eq_right hnd, mul_zero, mul_zero, neg_zero, max_self]

/-! ## The weight -/

/-- The square root of a non-negative extended real is non-negative. -/
theorem sqrt_nonneg {x : EReal} (hx : 0 ≤ x) : 0 ≤ Ideal.sqrt x := by
  induction x using EReal.rec with
  | bot => exact absurd hx (by simp)
  | coe r =>
    have hr : 0 ≤ r := by exact_mod_cast hx
    show (0 : EReal) ≤ (if r < 0 then (⊥ : EReal) else ((Real.sqrt r : ℝ) : EReal))
    rw [if_neg (not_lt.mpr hr)]
    exact_mod_cast Real.sqrt_nonneg r
  | top => exact le_top

/-- The logistic function is non-negative at every extended real. -/
theorem logistic_nonneg (x : EReal) : 0 ≤ Ideal.logistic x := by
  induction x using EReal.rec with
  | bot => rw [Ideal.logistic_bot]
  | coe r =>
    rw [Ideal.logistic_coe]
    have : (0 : ℝ) ≤ (1 + Real.exp (-r))⁻¹ := by positivity
    exact_mod_cast this
  | top => rw [Ideal.logistic_top]; exact zero_le_one

theorem sqrt_logistic_nonneg (x : EReal) : 0 ≤ Ideal.sqrt (Ideal.logistic x) :=
  sqrt_nonneg (logistic_nonneg x)

/-! ## One row, one edge -/

/-- The two programs' values at one row and one edge, for a source degree `x ≠ 0`, endpoint values `yt`, `ys`
    and weight `w`: the scaled form with the positive part, and the divided form with the absolute value. -/
theorem edge_eq (w x yt ys : EReal) (hx : x ≠ 0) :
    Ideal.sqrt (Ideal.logistic w)
        * max (Ideal.ofBits .f32 0x00000000#32
            - (yt * Ideal.div (Ideal.ofBits .f32 0x3F800000#32) (x * x) - ys * Ideal.div (Ideal.ofBits .f32 0x3F800000#32) (x * x)))
          (Ideal.ofBits .f32 0x00000000#32)
      = max
          ((Ideal.sqrt (Ideal.div (Ideal.ofBits .f32 0x3F800000#32) (Ideal.ofBits .f32 0x3F800000#32 + Ideal.exp (-w)))
              * Ideal.ofBits .f32 0xBF800000#32)
            * min (Ideal.div yt (Ideal.pow x (Ideal.ofBits .f32 0x40000000#32)) - Ideal.div ys (Ideal.pow x (Ideal.ofBits .f32 0x40000000#32)))
                (Ideal.ofBits .f32 0x00000000#32))
          (-((Ideal.sqrt (Ideal.div (Ideal.ofBits .f32 0x3F800000#32) (Ideal.ofBits .f32 0x3F800000#32 + Ideal.exp (-w)))
              * Ideal.ofBits .f32 0xBF800000#32)
            * min (Ideal.div yt (Ideal.pow x (Ideal.ofBits .f32 0x40000000#32)) - Ideal.div ys (Ideal.pow x (Ideal.ofBits .f32 0x40000000#32)))
                (Ideal.ofBits .f32 0x00000000#32))) := by
  rw [ofBits_zero, ofBits_one, ofBits_two, ofBits_neg_one, quot_sq x yt hx, quot_sq x ys hx]
  exact (abs_neg_min (Ideal.sqrt (Ideal.logistic w)) _ (sqrt_logistic_nonneg w)).symm

end Cert.EdgeLaw

end
-- ==== Proof.EdgePre.lean ====
/-
  What the precondition says of the index array and of the degrees.

  The printed predicate is a conjunction of `all`-reductions. Two of its conjuncts are about more than finiteness:
  every entry `w` of the index array satisfies `0 ≤ w` and `w < 100000` as signed words — so its value is below
  100000, and it reads the same signed and unsigned (`index_range`) —, and the degree gathered at every edge's
  source is not zero (`degree_ne_zero`). Finiteness of the float inputs is not used anywhere in this certificate.
-/
import proofs.«419857_j10943576670372_3_alg».proof.Proof.Gen.Pre_finite_inputs
import proofs.«419857_j10943576670372_3_alg».proof.Proof.EdgeSpec
import proofs.«419857_j10943576670372_3_alg».proof.Proof.EdgeLaw
import Idealize.ShloMosaic.Lib.ReduceAll
import Idealize.ShloMosaic.Lib.ValueIdx
import Idealize.ShloMosaic.Lib.StableHlo.Predicate

noncomputable section

namespace Cert.EdgePre

open Idealize.ShloMosaic Idealize.ShloMosaic.ValueIdx Idealize.ShloMosaic.StableHlo.Predicate Cert.EdgeSpec
open Cert.KernelIdeal (S8x100000 S1 S3200000 S2x3200000)

/-- A 32-bit word that is `≥ 0` and `< 100000` as a signed word has a value below 100000. -/
theorem small_of_cmp (w : BitVec 32) (h1 : IntOp.cmpi .sge w 0#32 = 1#1) (h2 : IntOp.cmpi .slt w 100000#32 = 1#1) :
    w.toNat < 100000 := by
  have h1' : BitVec.ofBool ((0#32 : BitVec 32).sle w) = 1#1 := h1
  have h2' : BitVec.ofBool (w.slt 100000#32) = 1#1 := h2
  have g1 := (ofBool_eq_one_iff _).1 h1'
  have g2 := (ofBool_eq_one_iff _).1 h2'
  simp only [BitVec.sle, BitVec.slt, decide_eq_true_eq] at g1 g2
  have z : (0#32 : BitVec 32).toInt = 0 := by decide
  have hh : (100000#32 : BitVec 32).toInt = 100000 := by decide
  rw [z] at g1; rw [hh] at g2
  have hc := BitVec.toInt_eq_msb_cond w
  have hlt : w.toNat < 2 ^ 32 := w.isLt
  by_cases hm : w.msb = true
  · rw [if_pos hm] at hc; omega
  · rw [if_neg hm] at hc; omega

/-- A float comparison `≠` that answers 1 compared two different extended reals. -/
theorem ne_of_cmp_une (x y : EReal) (h : FloatOps.cmpf (F := Ideal) (φ := .f32) .une x y = 1#1) : x ≠ y := by
  have h' : BitVec.ofBool (decide (x ≠ y)) = 1#1 := h
  exact of_decide_eq_true ((ofBool_eq_one_iff _).1 h')

instance : Subsingleton Cert.Pre_finite_inputs.S_.Idx := ⟨fun a b => funext fun d => d.elim0⟩

/-- Under the precondition every entry of the index array is below the node count. -/
theorem index_range (a0 : FVec Ideal S8x100000 .f32) (a1 : FVec Ideal S1 .f32) (a2 a3 : FVec Ideal S3200000 .f32)
    (a4 : IVec S2x3200000 32) (h : Cert.Pre_finite_inputs.fn (F := Ideal) a0 a1 a2 a3 a4 = fun _ => 1#1) :
    ∀ k : S2x3200000.Idx, (a4 k).toNat < 100000 := by
  have h0 := congrFun h ix0
  dsimp only [Cert.Pre_finite_inputs.fn, Cert.Pre_finite_inputs.fn_part1, Cert.Pre_finite_inputs.fn_part2] at h0
  have hA := (IntOp.andi_eq_one.1 (IntOp.andi_eq_one.1 h0).1).2
  intro k
  have hk := Host.reduce_andi_all _ _ _ _ ix0 hA k
  have hk' : IntOp.andi (IntOp.cmpi .sge (a4 k) 0#32) (IntOp.cmpi .slt (a4 k) 100000#32) = 1#1 := hk
  obtain ⟨h1, h2⟩ := IntOp.andi_eq_one.1 hk'
  exact small_of_cmp _ h1 h2

/-- Under the precondition the degree gathered at every edge's source is not zero. -/
theorem degree_ne_zero (a0 : FVec Ideal S8x100000 .f32) (a1 : FVec Ideal S1 .f32) (a2 a3 : FVec Ideal S3200000 .f32)
    (a4 : IVec S2x3200000 32) (h : Cert.Pre_finite_inputs.fn (F := Ideal) a0 a1 a2 a3 a4 = fun _ => 1#1) :
    ∀ e : S3200000.Idx, gatherN (F := Ideal) (degree a2 a4) (srcIdx a4) e ≠ 0 := by
  have h0 := congrFun h ix0
  dsimp only [Cert.Pre_finite_inputs.fn, Cert.Pre_finite_inputs.fn_part1, Cert.Pre_finite_inputs.fn_part2] at h0
  have hB := (IntOp.andi_eq_one.1 h0).2
  intro e hz
  have he := Host.reduce_andi_all _ _ _ _ ix0 hB e
  rw [cmpf_apply] at he
  apply ne_of_cmp_une _ _ he
  show gatherN (F := Ideal) (degree a2 a4) (srcIdx a4) e = Ideal.ofBits .f32 0x00000000#32
  rw [hz, Cert.EdgeLaw.ofBits_zero]

end Cert.EdgePre

end
-- ==== Proof.LibAllOnes.lean ====
/-
  Two readings a fill-mode `take` needs that the library states only one way round.

  * An `and`-reduction started at 1 over an array of `i1` words that are all 1 is 1 at every result index
    (`reduce_andi_of_all`): the converse of the library's reading of `jnp.all`, by the same fold.
  * A length-`m` vector laid along the second axis of an [n × m] rectangle in ONE broadcast (dimension map `[1]`)
    reads, at (p, q), the vector at `q` (`bcast_axis1`).
-/
import Idealize.ShloMosaic.Lib.ReduceAll
import Idealize.ShloMosaic.Lib.StableHlo.Predicate

noncomputable section

namespace Cert.LibAllOnes

open Idealize.ShloMosaic Idealize.ShloMosaic.StableHlo.Predicate

/-- A left fold by `and` from 1 over 1s is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    have ha : f a = 1#1 := h a (List.mem_cons_self ..)
    have h11 : IntOp.andi 1#1 1#1 = 1#1 := by decide
    rw [List.foldl_cons, ha, h11]
    exact foldl_andi_one f l (fun n hn => h n (List.mem_cons_of_mem _ hn))

/-- An `and`-reduction from 1 of an array whose every element is 1 is 1 at every result index. -/
theorem reduce_andi_of_all {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, x i = 1#1) : Host.reduce IntOp.andi x init h hu j = 1#1 := by
  rw [Host.reduce_eq_foldl, hinit]
  exact foldl_andi_one x _ (fun i _ => hx i)

/-- A vector laid along the second axis of an [n × m] rectangle by one broadcast reads, at (p, q), the vector at `q`. -/
theorem bcast_axis1 {α : Type} {n m : Nat} (h : (⟨1, ![m]⟩ : Shape).BroadcastsInDim ⟨2, ![n, m]⟩ ![1])
    (v : (⟨1, ![m]⟩ : Shape).Idx → α) (p : Fin n) (q : Fin m) :
    broadcastInDim ⟨2, ![n, m]⟩ ![1] h v (ij p q) = v (Shape.Idx.ofFin q) := by
  simp only [broadcastInDim]
  congr 1
  funext a
  have ha : a = 0 := Subsingleton.elim _ _
  subst ha
  apply Fin.ext
  have hq := q.isLt
  split
  · next h1 => change m = 1 at h1; show (0 : Nat) = q.val; omega
  · rfl

end Cert.LibAllOnes

end
-- ==== Proof.EdgeBridge.lean ====
/-
  The two programs' per-edge updates are one array.

  With every index below the node count, the fill-mode gathers' masks are all 1 (a wrapped index is the index, and
  it lies in `[0, 99999]`), so the masked gather is the plain gather (`takeY_eq`). Reading both updates at row `b`
  and edge `e`: a per-edge vector laid over the rows is read at `e`; a node vector gathered at the source index is
  the vector at ONE node `node e`, the same node for the degree, its square's reciprocal and its power; the weights'
  one-row array is read at `e`. What is left is the scalar identity `edge_eq` at the degree of that node, which is
  not zero.
-/
import proofs.«419857_j10943576670372_3_alg».proof.Proof.EdgeSpec
import proofs.«419857_j10943576670372_3_alg».proof.Proof.EdgeLaw
import proofs.«419857_j10943576670372_3_alg».proof.Proof.EdgeRegion
import proofs.«419857_j10943576670372_3_alg».proof.Proof.LibAllOnes
import Idealize.ShloMosaic.Lib.ValueIdx
import Idealize.ShloMosaic.Lib.Pipeline.Value
import Idealize.ShloMosaic.Lib.StableHlo.Predicate

noncomputable section

namespace Cert.EdgeBridge

open Idealize.ShloMosaic Idealize.ShloMosaic.ValueIdx Idealize.ShloMosaic.StableHlo.Predicate
open Cert.EdgeSpec Cert.LibAllOnes Cert.KernelIdeal.EdgeRegion
open Cert.KernelIdeal (S8x100000 S1 S3200000 S2x3200000 S100000 S3200000x1 S8x3200000 S1x3200000 S_ S1x1)

/-! ## Indices -/

/-- Each source index is an entry of the index array. -/
theorem src_small (a4 : IVec S2x3200000 32) (hA : ∀ k, (a4 k).toNat < 100000) (e : S3200000.Idx) :
    (srcIdx a4 e).toNat < 100000 := by
  obtain ⟨k, hk⟩ : ∃ k, srcIdx a4 e = a4 k := ⟨_, rfl⟩
  rw [hk]; exact hA k

/-- Each target index is an entry of the index array. -/
theorem dst_small (a4 : IVec S2x3200000 32) (hA : ∀ k, (a4 k).toNat < 100000) (e : S3200000.Idx) :
    (dstIdx a4 e).toNat < 100000 := by
  obtain ⟨k, hk⟩ : ∃ k, dstIdx a4 e = a4 k := ⟨_, rfl⟩
  rw [hk]; exact hA k

/-- An index of a one-column array is its row. -/
theorem col_eta (k : S3200000x1.Idx) : k = ixP (k 0) := funext fun a => by
  match a with
  | ⟨0, _⟩ => rfl
  | ⟨1, h⟩ =>
    apply Fin.ext
    have h1 : (k ⟨1, h⟩).val < 1 := (k ⟨1, h⟩).isLt
    show (k ⟨1, h⟩).val = 0
    omega

/-- A non-negative small index is not wrapped: the start-index column holds the index itself. -/
theorem wrapCol_apply (v : IVec S3200000 32) (hv : ∀ e, (v e).toNat < 100000) (p : Fin 3200000) :
    wrapCol v (ixP p) = v (Shape.Idx.ofFin p) := by
  unfold wrapCol
  rw [bcast_col1, select_apply]
  have hw := hv (Shape.Idx.ofFin p)
  have hc : ¬ IntOp.cmpi .slt (v (Shape.Idx.ofFin p)) 0#32 = 1#1 := by
    rw [slt_iff_toNat (by omega) (by decide)]
    simp
  show Scalar.select (IntOp.cmpi .slt (v (Shape.Idx.ofFin p)) 0#32) _ _ = _
  rw [eq_zero_of_ne_one hc, select_zero]

/-! ## The mask -/

/-- With small indices the in-range mask is 1 everywhere. -/
theorem inRange_one (v : IVec S3200000 32) (hv : ∀ e, (v e).toNat < 100000) (i : S8x3200000.Idx) : inRange v i = 1#1 := by
  obtain ⟨b, e, rfl⟩ : ∃ (b : Fin 8) (e : Fin 3200000), i = ij b e := ⟨i 0, i 1, (ij_eta i).symm⟩
  unfold inRange
  rw [bcast_axis1]
  refine reduce_andi_of_all _ _ _ _ _ rfl (fun k => ?_)
  obtain ⟨p, rfl⟩ : ∃ p : Fin 3200000, k = ixP p := ⟨k 0, col_eta k⟩
  show IntOp.andi (IntOp.cmpi .sge (wrapCol v (ixP p)) 0#32) (IntOp.cmpi .sle (wrapCol v (ixP p)) 99999#32) = 1#1
  rw [wrapCol_apply v hv p]
  have hw := hv (Shape.Idx.ofFin p)
  have h9 : (99999#32 : BitVec 32).toNat = 99999 := by decide
  have h0 : (0#32 : BitVec 32).toNat = 0 := by decide
  exact IntOp.andi_eq_one.2 ⟨(sge_iff_toNat (by omega) (by omega)).2 (by omega), (sle_iff_toNat (by omega) (by omega)).2 (by omega)⟩

/-- So the masked gather is the plain gather. -/
theorem takeY_eq {F : FTy → Type} [FloatOps F] (a0 : FVec F S8x100000 .f32) (v : IVec S3200000 32) (hv : ∀ e, (v e).toNat < 100000) :
    takeY a0 v = gatherY a0 v := by
  funext i
  unfold takeY
  rw [select_apply, inRange_one v hv i, select_one]

/-! ## Reads at a row and an edge -/

variable {F : FTy → Type} [FloatOps F]

/-- A per-edge vector laid over the rows reads, at (b, e), the vector at `e`. -/
theorem rows8_apply (x : FVec F S3200000 .f32) (b : Fin 8) (e : Fin 3200000) : rows8 x (ij b e) = x (Shape.Idx.ofFin e) := by
  unfold rows8
  exact bcast_cols _ _ x b e

/-- The node a gather at the wrapped indices `v` reads for edge `e`. -/
def node (v : IVec S3200000 32) (e : Fin 3200000) : S100000.Idx :=
  Shape.Idx.ofFin ⟨min (wrapCol v (ixP e)).toInt.toNat (100000 - 1), by omega⟩

/-- A node vector gathered per edge reads, at `e`, the vector at `node v e`. -/
theorem gatherN_apply (x : FVec F S100000 .f32) (v : IVec S3200000 32) (e : Fin 3200000) :
    gatherN x v (Shape.Idx.ofFin e) = x (node v e) := by
  unfold gatherN node
  exact gather_take _ rfl rfl rfl rfl x (wrapCol v) e (by decide)

/-- The weights' one-row array reads, at (0, e), the weight at `e`. -/
theorem kWeight_apply (a3 : FVec F S3200000 .f32) (e : Fin 3200000) : kWeight a3 (rowIdx e) = a3 (Shape.Idx.ofFin e) := by
  unfold kWeight
  refine (shapeCast_addUnit_apply ![3200000] a3 _ (rowIdx e)).trans ?_
  refine congrArg a3 (funext fun a => ?_)
  match a with
  | ⟨0, _⟩ => rfl

/-! ## The programs' arithmetic read at an index, over arbitrary arrays -/

/-- The region's result at an index. -/
theorem edgeTerm_apply (d : S8x3200000.Idx → EReal) (w : S1x3200000.Idx → EReal) (i : S8x3200000.Idx) :
    edgeTerm (F := Ideal) d w i
      = Ideal.sqrt (Ideal.logistic (w (rowIdx (i 1)))) * max (Ideal.ofBits .f32 0x00000000#32 - d i) (Ideal.ofBits .f32 0x00000000#32) := rfl

/-- A difference of two products with a common factor, at an index. -/
theorem sub_mul_apply (A B C : FVec Ideal S8x3200000 .f32) (i : S8x3200000.Idx) :
    subf (mulf A B) (mulf C B) i = A i * B i - C i * B i := rfl

/-- The reciprocal of a square, at an index. -/
theorem inv_sq_apply (h : S_.BroadcastsInDim S100000 (![] : Fin 0 → Fin S100000.rank)) (Dg : FVec Ideal S100000 .f32) (k : S100000.Idx) :
    Host.divf (broadcastInDim S100000 ![] h (constant S_ .f32 0x3F800000#32)) (mulf Dg Dg) k
      = Ideal.div (Ideal.ofBits .f32 0x3F800000#32) (Dg k * Dg k) := rfl

/-- The power 2, at an index. -/
theorem pow_two_apply (h : S_.BroadcastsInDim S3200000 (![] : Fin 0 → Fin S3200000.rank)) (X : FVec Ideal S3200000 .f32) (i : S3200000.Idx) :
    Host.powf X (broadcastInDim S3200000 ![] h (constant S_ .f32 0x40000000#32)) i = Ideal.pow (X i) (Ideal.ofBits .f32 0x40000000#32) := rfl

/-- The negated logistic square root, at an index. -/
theorem rWeight_apply (a3 : FVec Ideal S3200000 .f32) (i : S3200000.Idx) :
    rWeight (F := Ideal) a3 i
      = Ideal.sqrt (Ideal.div (Ideal.ofBits .f32 0x3F800000#32) (Ideal.ofBits .f32 0x3F800000#32 + Ideal.exp (-(a3 i))))
        * Ideal.ofBits .f32 0xBF800000#32 := rfl

/-- The absolute value of a weight times the negative part of a difference of quotients, at an index. -/
theorem abs_min_apply (h : S_.BroadcastsInDim S8x3200000 (![] : Fin 0 → Fin S8x3200000.rank)) (Wt Y1 Y0 Pw : FVec Ideal S8x3200000 .f32) (i : S8x3200000.Idx) :
    Host.absf (mulf Wt (minimumf (subf (Host.divf Y1 Pw) (Host.divf Y0 Pw)) (broadcastInDim S8x3200000 ![] h (constant S_ .f32 0x00000000#32)))) i
      = max (Wt i * min (Ideal.div (Y1 i) (Pw i) - Ideal.div (Y0 i) (Pw i)) (Ideal.ofBits .f32 0x00000000#32))
          (-(Wt i * min (Ideal.div (Y1 i) (Pw i) - Ideal.div (Y0 i) (Pw i)) (Ideal.ofBits .f32 0x00000000#32))) := rfl

/-! ## The two updates -/

/-- Under the precondition's two facts the region's result on the kernel's difference and weights is the
    reference's update array. -/
theorem update_eq (a0 : FVec Ideal S8x100000 .f32) (a2 a3 : FVec Ideal S3200000 .f32) (a4 : IVec S2x3200000 32)
    (hA : ∀ k, (a4 k).toNat < 100000) (hB : ∀ e : S3200000.Idx, gatherN (F := Ideal) (degree a2 a4) (srcIdx a4) e ≠ 0) :
    edgeTerm (F := Ideal) (kDiff a0 a2 a4) (kWeight a3) = rUpd a0 a2 a3 a4 := by
  funext i
  obtain ⟨b, e, rfl⟩ : ∃ (b : Fin 8) (e : Fin 3200000), i = ij b e := ⟨i 0, i 1, (ij_eta i).symm⟩
  have hs := src_small a4 hA
  have hd := dst_small a4 hA
  have hx : degree (F := Ideal) a2 a4 (node (srcIdx a4) e) ≠ 0 := by
    have h := hB (Shape.Idx.ofFin e)
    rwa [gatherN_apply] at h
  have h1 : (ij b e : S8x3200000.Idx) 1 = e := rfl
  rw [edgeTerm_apply, h1]
  unfold kDiff rUpd
  rw [sub_mul_apply, abs_min_apply, takeY_eq a0 _ hd, takeY_eq a0 _ hs, rows8_apply, rows8_apply, rows8_apply, kWeight_apply,
    rWeight_apply]
  unfold rPow invSq
  rw [pow_two_apply, gatherN_apply, gatherN_apply, inv_sq_apply]
  exact Cert.EdgeLaw.edge_eq _ _ _ _ hx

end Cert.EdgeBridge

end
-- ==== Proof.lean ====
/-
  Message passing over a graph: per edge `e` with source `s` and target `t`, both programs add
  `√σ(w_e) · max (−(y[·,t]/deg_s² − y[·,s]/deg_s²), 0)` into node `s` and return `1 −` the sums, where `deg` is the
  sum of the edge attributes over each source node. The kernel program computes `deg·deg`, takes its reciprocal per
  node, gathers it per edge and MULTIPLIES both endpoint values by it, gathers the node values through an in-range
  mask, and leaves the chain `√σ(w) · max (0 − d, 0)` to one pipelined region of 25 blocks of 128 000 edges; the
  reference DIVIDES by the real power `deg ^ 2` and takes `|√σ(w) · (−1) · min (d, 0)|`.

  The precondition carries, beside finiteness, two evident-domain facts: every index lies in `[0, 100000)` — outside it
  the reference's gathers clamp while the kernel's fill —, and the degree at every edge's source is not zero — there
  the reference divides by zero (`0/0` against the kernel's `0 · ∞`). Under them (Proof/EdgePre.lean):
  * the masks are all 1, so both programs gather the same node values (Proof/EdgeBridge.lean);
  * off zero a quotient by `x ^ 2` is the product with the reciprocal of `x · x`, at `±∞` too, and for `a ≥ 0`
    `|a · (−1) · min (d, 0)| = a · max (0 − d, 0)` (Proof/EdgeLaw.lean): the two per-edge updates are one array;
  * both programs then apply the same sum into the source nodes and the same `1 − ·` to it (Proof/EdgeSpec.lean's
    `result`), the kernel's region having left the update whole (Proof/EdgeRegion.lean, Proof/KernelHost.lean) and the
    reference's run stating its term (Proof/RefValue.lean).
  Finiteness of the float inputs is never used. The frames are the generated ones; the reference's is its generated
  run with the result dropped; nothing was idealized, so `preserves` is `True`.
-/
import proofs.«419857_j10943576670372_3_alg».proof.Defs
import proofs.«419857_j10943576670372_3_alg».proof.Proof.Gen.Kernel
import proofs.«419857_j10943576670372_3_alg».proof.Proof.Gen.Kernel.Skeleton
import proofs.«419857_j10943576670372_3_alg».proof.Proof.Gen.Kernel.Launch
import proofs.«419857_j10943576670372_3_alg».proof.Proof.Gen.Kernel.Points
import proofs.«419857_j10943576670372_3_alg».proof.Proof.Gen.Kernel.Frame
import proofs.«419857_j10943576670372_3_alg».proof.Proof.Gen.KernelIdeal
import proofs.«419857_j10943576670372_3_alg».proof.Proof.Gen.KernelIdeal.Skeleton
import proofs.«419857_j10943576670372_3_alg».proof.Proof.Gen.KernelIdeal.Launch
import proofs.«419857_j10943576670372_3_alg».proof.Proof.Gen.KernelIdeal.Points
import proofs.«419857_j10943576670372_3_alg».proof.Proof.Gen.KernelIdeal.Frame
import proofs.«419857_j10943576670372_3_alg».proof.Proof.Gen.ReferenceIdeal
import proofs.«419857_j10943576670372_3_alg».proof.Proof.Gen.ReferenceIdeal.Run
import proofs.«419857_j10943576670372_3_alg».proof.Proof.Gen.Pre_finite_inputs
import proofs.«419857_j10943576670372_3_alg».proof.Proof.KernelHost
import proofs.«419857_j10943576670372_3_alg».proof.Proof.RefValue
import proofs.«419857_j10943576670372_3_alg».proof.Proof.EdgePre
import proofs.«419857_j10943576670372_3_alg».proof.Proof.EdgeBridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The two runs side by side: the kernel's ends at `result` of its region's update, the reference's at `result` of
    `rUpd`; on agreeing arguments, under the precondition's two facts, the updates are one array. -/
theorem algebraic : Cert.algebraic_KernelIdeal_ReferenceIdeal := by
  intro m ρ m' ρ' hpre hagree
  refine ⟨_, Cert.KernelIdeal.EdgeHost.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.EdgeRef.res_eq, (hagree c).1, (hagree c).2.2.1, (hagree c).2.2.2.1, (hagree c).2.2.2.2]
  rw [Cert.EdgeBridge.update_eq _ _ _ _ (Cert.EdgePre.index_range _ _ _ _ _ (hpre c)) (Cert.EdgePre.degree_ne_zero _ _ _ _ _ (hpre c))]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
